-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x2 : Shape := ⟨3, ![8, 2048, 2]⟩
abbrev S8x512x2048 : Shape := ⟨3, ![8, 512, 2048]⟩
abbrev S8x2048 : Shape := ⟨2, ![8, 2048]⟩
abbrev S8x512 : Shape := ⟨2, ![8, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg5 : FVec F S8x512 .f32) (main_v13 : IVec S_ 1) (main_v16 : IVec S8x2048x512 1) : IVec S_ 1 :=
  let main_c_5 : IVec S_ 1 := constantI S_ 1 1#1
  let main_v17 : IVec S_ 1 := (fun x v => Host.reduce IntOp.andi x v reducesTo_S8x2048x512_S_d0_1_2 h_S_) main_v16 main_c_5
  let main_v18 : IVec S_ 1 := andi main_v13 main_v17
  let main_v19 : FVec F S8x512 .f32 := Host.absf main_arg5
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  main_v23

def fn {F : FTy → Type} [FloatOps F] (main_arg0 : FVec F S8x2048x512 .f32) (main_arg1 : IVec S8x2048x2 32) (main_arg2 : FVec F S8x512x2048 .f32) (main_arg3 : FVec F S8x2048 .f32) (main_arg4 : FVec F S8x2048x512 .f32) (main_arg5 : FVec F S8x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x512x2048 .f32 := Host.absf main_arg2
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x512 .f32 := Host.absf main_arg4
  let main_cst_4 : FVec F S_ .f32 := constant S_ .f32 0x7F800000#32
  let main_v15 : FVec F S8x2048x512 .f32 := broadcastInDim S8x2048x512 ![] bcast_S_S8x2048x512 main_cst_4
  let main_v16 : IVec S8x2048x512 1 := cmpf .olt main_v14 main_v15
  fn_part1 (F := F) main_arg5 main_v13 main_v16
-- ==== Kernel.lean ====
abbrev S8x2048x512 : Shape := ⟨3, ![8, 2048, 512]⟩
abbrev S8x2048x2 : Shape := ⟨3, ![8, 2048, 2]⟩
abbrev S8x512x2048 : Shape := ⟨3, ![8, 512, 2048]⟩
abbrev S8x2048 : Shape := ⟨2, ![8, 2048]⟩
abbrev S8x512 : Shape := ⟨2, ![8, 512]⟩
abbrev S16384x512 : Shape := ⟨2, ![16384, 512]⟩
abbrev S16384x2 : Shape := ⟨2, ![16384, 2]⟩
abbrev S8 : Shape := ⟨1, ![8]⟩
abbrev S16384x2x1 : Shape := ⟨3, ![16384, 2, 1]⟩
abbrev S1x1x8 : Shape := ⟨3, ![1, 1, 8]⟩
abbrev S16384x2x8 : Shape := ⟨3, ![16384, 2, 8]⟩
abbrev S_ : Shape := ⟨0, ![]⟩
abbrev S16384x8 : Shape := ⟨2, ![16384, 8]⟩
abbrev S256x512 : Shape := ⟨2, ![256, 512]⟩
abbrev S256x8 : Shape := ⟨2, ![256, 8]⟩
abbrev S1x512x2048 : Shape := ⟨3, ![1, 512, 2048]⟩
abbrev S512x2048 : Shape := ⟨2, ![512, 2048]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512 : Shape := ⟨2, ![1, 512]⟩
abbrev S512 : Shape := ⟨1, ![512]⟩
abbrev S256x2048 : Shape := ⟨2, ![256, 2048]⟩
abbrev S1x8 : Shape := ⟨2, ![1, 8]⟩
abbrev S256 : Shape := ⟨1, ![256]⟩
abbrev S256x1 : Shape := ⟨2, ![256, 1]⟩

abbrev nBuf : Space → Nat
  | .hbm => 24
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x2, .i32⟩
  | .hbm, ⟨2, _⟩ => ⟨S8x512x2048, .f32⟩
  | .hbm, ⟨3, _⟩ => ⟨S8x2048, .f32⟩
  | .hbm, ⟨4, _⟩ => ⟨S8x2048x512, .f32⟩
  | .hbm, ⟨5, _⟩ => ⟨S8x512, .f32⟩
  | .hbm, ⟨6, _⟩ => ⟨S16384x512, .f32⟩
  | .hbm, ⟨7, _⟩ => ⟨S16384x2, .i32⟩
  | .hbm, ⟨8, _⟩ => ⟨S8, .i32⟩
  | .hbm, ⟨9, _⟩ => ⟨S16384x2x1, .i32⟩
  | .hbm, ⟨10, _⟩ => ⟨S1x1x8, .i32⟩
  | .hbm, ⟨11, _⟩ => ⟨S16384x2x8, .i32⟩
  | .hbm, ⟨12, _⟩ => ⟨S16384x2x8, .i32⟩
  | .hbm, ⟨13, _⟩ => ⟨S16384x2x8, .i1⟩
  | .hbm, ⟨14, _⟩ => ⟨S_, .i1⟩
  | .hbm, ⟨15, _⟩ => ⟨S16384x8, .i1⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S8x512x2048, .bf16⟩
  | .hbm, ⟨21, _⟩ => ⟨S8x2048x512, .bf16⟩
  | .hbm, ⟨22, _⟩ => ⟨S16384x512, .f32⟩
  | .hbm, ⟨23, _⟩ => ⟨S8x2048x512, .f32⟩
  | .local _ .vmem, ⟨0, _⟩ => ⟨S256x512, .f32⟩
  | .local _ .vmem, ⟨1, _⟩ => ⟨S256x512, .f32⟩
  | .local _ .vmem, ⟨2, _⟩ => ⟨S256x8, .f32⟩
  | .local _ .vmem, ⟨3, _⟩ => ⟨S256x8, .f32⟩
  | .local _ .vmem, ⟨4, _⟩ => ⟨S8x512x2048, .bf16⟩
  | .local _ .vmem, ⟨5, _⟩ => ⟨S8x2048x512, .bf16⟩
  | .local _ .vmem, ⟨6, _⟩ => ⟨S8x2048, .f32⟩
  | .local _ .vmem, ⟨7, _⟩ => ⟨S8x512, .f32⟩
  | .local _ .vmem, ⟨8, _⟩ => ⟨S256x512, .f32⟩
  | .local _ .vmem, ⟨9, _⟩ => ⟨S256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v9 : Index := Scalar.indexCast arg8
  let c0_6 : Index := 0#32
  let c0_7 : Index := 0#32
  ![v9.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v12 : Index := Scalar.indexCast arg8
  let c0_8 : Index := 0#32
  let c0_9 : Index := 0#32
  ![v12.toNat, 0, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let v15 : Index := Scalar.indexCast arg8
  let c0_10 : Index := 0#32
  ![v15.toNat, 0]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let v18 : Index := Scalar.indexCast arg8
  let c0_11 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x512_S16384x512 : S8x2048x512.ShapeCasts S16384x512
  shapeCasts_S8x2048x2_S16384x2 : S8x2048x2.ShapeCasts S16384x2
  bcast_S16384x2_S16384x2x1_0_1 : S16384x2.BroadcastsInDim S16384x2x1 (![0, 1] : Fin 2 → Fin S16384x2x1.rank)
  bcast_S8_S1x1x8_2 : S8.BroadcastsInDim S1x1x8 (![2] : Fin 1 → Fin S1x1x8.rank)
  bcast_S16384x2x1_S16384x2x8_0_1_2 : S16384x2x1.BroadcastsInDim S16384x2x8 (![0, 1, 2] : Fin 3 → Fin S16384x2x8.rank)
  bcast_S1x1x8_S16384x2x8_0_1_2 : S1x1x8.BroadcastsInDim S16384x2x8 (![0, 1, 2] : Fin 3 → Fin S16384x2x8.rank)
  reducesTo_S16384x2x8_S16384x8_d1 : S16384x2x8.ReducesTo [1] S16384x8
  h_S_ : 0 < S_.numel
  bcast_S_S16384x8 : S_.BroadcastsInDim S16384x8 (![] : Fin 0 → Fin S16384x8.rank)
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x8_S256x8_0_0 : ∀ a, (![0, 0] : Fin 2 → Nat) a + S256x8.size a ≤ S256x8.size a
  h_S256x8 : 0 < S256x8.numel
  shapeCasts_S256x8_S256x8 : S256x8.ShapeCasts S256x8
  h_S1x512x2048 : 0 < S1x512x2048.numel
  shapeCasts_S1x512x2048_S512x2048 : S1x512x2048.ShapeCasts S512x2048
  h_S1x2048x512 : 0 < S1x2048x512.numel
  shapeCasts_S1x2048x512_S2048x512 : S1x2048x512.ShapeCasts S2048x512
  h_S1x2048 : 0 < S1x2048.numel
  shapeCasts_S1x2048_S2048 : S1x2048.ShapeCasts S2048
  h_S1x512 : 0 < S1x512.numel
  shapeCasts_S1x512_S512 : S1x512.ShapeCasts S512
  shapeCasts_S2048_S1x2048 : S2048.ShapeCasts S1x2048
  broadcasts_S1x2048_S256x2048 : S1x2048.Broadcasts S256x2048
  shapeCasts_S512_S1x512 : S512.ShapeCasts S1x512
  broadcasts_S1x512_S256x512 : S1x512.Broadcasts S256x512
  iota_S1x8_d1_w32 : S1x8.Iotas .tc 32 [1]
  natLt_1_32 : 1 < 32
  broadcasts_S1x8_S256x8 : S1x8.Broadcasts S256x8
  reduces_S256x8_S256 : S256x8.Reduces [1] S256
  shapeCasts_S256_S256x1 : S256.ShapeCasts S256x1
  broadcasts_S256x1_S256x512 : S256x1.Broadcasts S256x512
  shapeCasts_S16384x512_S8x2048x512 : S16384x512.ShapeCasts S8x2048x512
  dot_S256x512_S512x2048_S256x2048_1_0_0_1_n_n_wf : DotDims.WF S256x512 S512x2048 S256x2048 [1] [0] [0] [1] [] []
  dot_S256x2048_S2048x512_S256x512_1_0_0_1_n_n_wf : DotDims.WF S256x2048 S2048x512 S256x512 [1] [0] [0] [1] [] []
  hrank0 : 0 < grid0.rank
  k0_t1_ok : k0_t1_loop.OK
  k0_off1_inb : ∀ k0_t1 : Fin k0_t1_loop.trips, ∀ a, (k0_off1 k0_t1) a + S1x512x2048.size a ≤ S8x512x2048.size a
  k0_off2_inb : ∀ k0_t1 : Fin k0_t1_loop.trips, ∀ a, (k0_off2 k0_t1) a + S1x2048x512.size a ≤ S8x2048x512.size a
  k0_off3_inb : ∀ k0_t1 : Fin k0_t1_loop.trips, ∀ a, (k0_off3 k0_t1) a + S1x2048.size a ≤ S8x2048.size a
  k0_off4_inb : ∀ k0_t1 : Fin k0_t1_loop.trips, ∀ a, (k0_off4 k0_t1) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S16384x8.size a
  hwx0_1 : ∀ i : grid0.Coords, EltTy.bits .f32 = 32 ∨ (Rect.block (s := S16384x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512x2048.size a ≤ S8x512x2048.size a
  hwx0_2 : ∀ i : grid0.Coords, EltTy.bits .bf16 = 32 ∨ (Rect.block (s := S8x512x2048) S8x512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2048x512.size a ≤ S8x2048x512.size a
  hwx0_3 : ∀ i : grid0.Coords, EltTy.bits .bf16 = 32 ∨ (Rect.block (s := S8x2048x512) S8x2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S8x2048.size a
  hwx0_4 : ∀ i : grid0.Coords, EltTy.bits .f32 = 32 ∨ (Rect.block (s := S8x2048) S8x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S16384x512.size a
  hwx0_6 : ∀ i : grid0.Coords, EltTy.bits .f32 = 32 ∨ (Rect.block (s := S16384x512) S256x512.size (cc0_transform_6 i) (hinb0_6 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8x2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2 : Shape := ⟨3, ![8, 2048, 2]⟩
abbrev S8x512x2048 : Shape := ⟨3, ![8, 512, 2048]⟩
abbrev S8x2048 : Shape := ⟨2, ![8, 2048]⟩
abbrev S8x512 : Shape := ⟨2, ![8, 512]⟩
abbrev S16384x512 : Shape := ⟨2, ![16384, 512]⟩
abbrev S16384x2 : Shape := ⟨2, ![16384, 2]⟩
abbrev S_ : Shape := ⟨0, ![]⟩
abbrev S16384 : Shape := ⟨1, ![16384]⟩
abbrev S1x512x2048 : Shape := ⟨3, ![1, 512, 2048]⟩
abbrev S512x2048 : Shape := ⟨2, ![512, 2048]⟩
abbrev S16384x2048 : Shape := ⟨2, ![16384, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S1x512 : Shape := ⟨2, ![1, 512]⟩
abbrev S512 : Shape := ⟨1, ![512]⟩
abbrev S16384x1 : Shape := ⟨2, ![16384, 1]⟩

abbrev nBuf : Space → Nat
  | .hbm => 254
  | .vmem => 0
  | .smem => 0
  | _ => 0

abbrev hbmTy0_0 (i : Nat) : BufTy := match i % 128 with
  | 0 => ⟨S8x2048x512, .f32⟩
  | 1 => ⟨S8x2048x2, .i32⟩
  | 2 => ⟨S8x512x2048, .f32⟩
  | 3 => ⟨S8x2048, .f32⟩
  | 4 => ⟨S8x2048x512, .f32⟩
  | 5 => ⟨S8x512, .f32⟩
  | 6 => ⟨S16384x512, .f32⟩
  | 7 => ⟨S16384x2, .i32⟩
  | 8 => ⟨S_, .f32⟩
  | 9 => ⟨S16384x512, .f32⟩
  | 10 => ⟨S_, .i32⟩
  | 11 => ⟨S16384x2, .i32⟩
  | 12 => ⟨S16384x2, .i1⟩
  | 13 => ⟨S_, .i1⟩
  | 14 => ⟨S16384, .i1⟩
  | 15 => ⟨S1x512x2048, .f32⟩
  | 16 => ⟨S512x2048, .f32⟩
  | 17 => ⟨S16384x2048, .f32⟩
  | 18 => ⟨S1x2048, .f32⟩
  | 19 => ⟨S2048, .f32⟩
  | 20 => ⟨S1x2048, .f32⟩
  | 21 => ⟨S16384x2048, .f32⟩
  | 22 => ⟨S16384x2048, .f32⟩
  | 23 => ⟨S_, .f32⟩
  | 24 => ⟨S16384x2048, .f32⟩
  | 25 => ⟨S16384x2048, .f32⟩
  | 26 => ⟨S1x2048x512, .f32⟩
  | 27 => ⟨S2048x512, .f32⟩
  | 28 => ⟨S16384x512, .f32⟩
  | 29 => ⟨S1x512, .f32⟩
  | 30 => ⟨S512, .f32⟩
  | 31 => ⟨S1x512, .f32⟩
  | 32 => ⟨S16384x512, .f32⟩
  | 33 => ⟨S16384x512, .f32⟩
  | 34 => ⟨S16384x1, .i1⟩
  | 35 => ⟨S_, .f32⟩
  | 36 => ⟨S16384x512, .i1⟩
  | 37 => ⟨S16384x512, .f32⟩
  | 38 => ⟨S16384x512, .f32⟩
  | 39 => ⟨S16384x512, .f32⟩
  | 40 => ⟨S_, .i32⟩
  | 41 => ⟨S16384x2, .i32⟩
  | 42 => ⟨S16384x2, .i1⟩
  | 43 => ⟨S_, .i1⟩
  | 44 => ⟨S16384, .i1⟩
  | 45 => ⟨S1x512x2048, .f32⟩
  | 46 => ⟨S512x2048, .f32⟩
  | 47 => ⟨S16384x2048, .f32⟩
  | 48 => ⟨S1x2048, .f32⟩
  | 49 => ⟨S2048, .f32⟩
  | 50 => ⟨S1x2048, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S1x2048x512, .f32⟩
  | 57 => ⟨S2048x512, .f32⟩
  | 58 => ⟨S16384x512, .f32⟩
  | 59 => ⟨S1x512, .f32⟩
  | 60 => ⟨S512, .f32⟩
  | 61 => ⟨S1x512, .f32⟩
  | 62 => ⟨S16384x512, .f32⟩
  | 63 => ⟨S16384x512, .f32⟩
  | 64 => ⟨S16384x1, .i1⟩
  | 65 => ⟨S_, .f32⟩
  | 66 => ⟨S16384x512, .i1⟩
  | 67 => ⟨S16384x512, .f32⟩
  | 68 => ⟨S16384x512, .f32⟩
  | 69 => ⟨S16384x512, .f32⟩
  | 70 => ⟨S_, .i32⟩
  | 71 => ⟨S16384x2, .i32⟩
  | 72 => ⟨S16384x2, .i1⟩
  | 73 => ⟨S_, .i1⟩
  | 74 => ⟨S16384, .i1⟩
  | 75 => ⟨S1x512x2048, .f32⟩
  | 76 => ⟨S512x2048, .f32⟩
  | 77 => ⟨S16384x2048, .f32⟩
  | 78 => ⟨S1x2048, .f32⟩
  | 79 => ⟨S2048, .f32⟩
  | 80 => ⟨S1x2048, .f32⟩
  | 81 => ⟨S16384x2048, .f32⟩
  | 82 => ⟨S16384x2048, .f32⟩
  | 83 => ⟨S_, .f32⟩
  | 84 => ⟨S16384x2048, .f32⟩
  | 85 => ⟨S16384x2048, .f32⟩
  | 86 => ⟨S1x2048x512, .f32⟩
  | 87 => ⟨S2048x512, .f32⟩
  | 88 => ⟨S16384x512, .f32⟩
  | 89 => ⟨S1x512, .f32⟩
  | 90 => ⟨S512, .f32⟩
  | 91 => ⟨S1x512, .f32⟩
  | 92 => ⟨S16384x512, .f32⟩
  | 93 => ⟨S16384x512, .f32⟩
  | 94 => ⟨S16384x1, .i1⟩
  | 95 => ⟨S_, .f32⟩
  | 96 => ⟨S16384x512, .i1⟩
  | 97 => ⟨S16384x512, .f32⟩
  | 98 => ⟨S16384x512, .f32⟩
  | 99 => ⟨S16384x512, .f32⟩
  | 100 => ⟨S_, .i32⟩
  | 101 => ⟨S16384x2, .i32⟩
  | 102 => ⟨S16384x2, .i1⟩
  | 103 => ⟨S_, .i1⟩
  | 104 => ⟨S16384, .i1⟩
  | 105 => ⟨S1x512x2048, .f32⟩
  | 106 => ⟨S512x2048, .f32⟩
  | 107 => ⟨S16384x2048, .f32⟩
  | 108 => ⟨S1x2048, .f32⟩
  | 109 => ⟨S2048, .f32⟩
  | 110 => ⟨S1x2048, .f32⟩
  | 111 => ⟨S16384x2048, .f32⟩
  | 112 => ⟨S16384x2048, .f32⟩
  | 113 => ⟨S_, .f32⟩
  | 114 => ⟨S16384x2048, .f32⟩
  | 115 => ⟨S16384x2048, .f32⟩
  | 116 => ⟨S1x2048x512, .f32⟩
  | 117 => ⟨S2048x512, .f32⟩
  | 118 => ⟨S16384x512, .f32⟩
  | 119 => ⟨S1x512, .f32⟩
  | 120 => ⟨S512, .f32⟩
  | 121 => ⟨S1x512, .f32⟩
  | 122 => ⟨S16384x512, .f32⟩
  | 123 => ⟨S16384x512, .f32⟩
  | 124 => ⟨S16384x1, .i1⟩
  | 125 => ⟨S_, .f32⟩
  | 126 => ⟨S16384x512, .i1⟩
  | 127 => ⟨S16384x512, .f32⟩
  | _ => ⟨S8x2048x512, .f32⟩

abbrev hbmTy0_1 (i : Nat) : BufTy := match i % 128 with
  | 0 => ⟨S16384x512, .f32⟩
  | 1 => ⟨S16384x512, .f32⟩
  | 2 => ⟨S_, .i32⟩
  | 3 => ⟨S16384x2, .i32⟩
  | 4 => ⟨S16384x2, .i1⟩
  | 5 => ⟨S_, .i1⟩
  | 6 => ⟨S16384, .i1⟩
  | 7 => ⟨S1x512x2048, .f32⟩
  | 8 => ⟨S512x2048, .f32⟩
  | 9 => ⟨S16384x2048, .f32⟩
  | 10 => ⟨S1x2048, .f32⟩
  | 11 => ⟨S2048, .f32⟩
  | 12 => ⟨S1x2048, .f32⟩
  | 13 => ⟨S16384x2048, .f32⟩
  | 14 => ⟨S16384x2048, .f32⟩
  | 15 => ⟨S_, .f32⟩
  | 16 => ⟨S16384x2048, .f32⟩
  | 17 => ⟨S16384x2048, .f32⟩
  | 18 => ⟨S1x2048x512, .f32⟩
  | 19 => ⟨S2048x512, .f32⟩
  | 20 => ⟨S16384x512, .f32⟩
  | 21 => ⟨S1x512, .f32⟩
  | 22 => ⟨S512, .f32⟩
  | 23 => ⟨S1x512, .f32⟩
  | 24 => ⟨S16384x512, .f32⟩
  | 25 => ⟨S16384x512, .f32⟩
  | 26 => ⟨S16384x1, .i1⟩
  | 27 => ⟨S_, .f32⟩
  | 28 => ⟨S16384x512, .i1⟩
  | 29 => ⟨S16384x512, .f32⟩
  | 30 => ⟨S16384x512, .f32⟩
  | 31 => ⟨S16384x512, .f32⟩
  | 32 => ⟨S_, .i32⟩
  | 33 => ⟨S16384x2, .i32⟩
  | 34 => ⟨S16384x2, .i1⟩
  | 35 => ⟨S_, .i1⟩
  | 36 => ⟨S16384, .i1⟩
  | 37 => ⟨S1x512x2048, .f32⟩
  | 38 => ⟨S512x2048, .f32⟩
  | 39 => ⟨S16384x2048, .f32⟩
  | 40 => ⟨S1x2048, .f32⟩
  | 41 => ⟨S2048, .f32⟩
  | 42 => ⟨S1x2048, .f32⟩
  | 43 => ⟨S16384x2048, .f32⟩
  | 44 => ⟨S16384x2048, .f32⟩
  | 45 => ⟨S_, .f32⟩
  | 46 => ⟨S16384x2048, .f32⟩
  | 47 => ⟨S16384x2048, .f32⟩
  | 48 => ⟨S1x2048x512, .f32⟩
  | 49 => ⟨S2048x512, .f32⟩
  | 50 => ⟨S16384x512, .f32⟩
  | 51 => ⟨S1x512, .f32⟩
  | 52 => ⟨S512, .f32⟩
  | 53 => ⟨S1x512, .f32⟩
  | 54 => ⟨S16384x512, .f32⟩
  | 55 => ⟨S16384x512, .f32⟩
  | 56 => ⟨S16384x1, .i1⟩
  | 57 => ⟨S_, .f32⟩
  | 58 => ⟨S16384x512, .i1⟩
  | 59 => ⟨S16384x512, .f32⟩
  | 60 => ⟨S16384x512, .f32⟩
  | 61 => ⟨S16384x512, .f32⟩
  | 62 => ⟨S_, .i32⟩
  | 63 => ⟨S16384x2, .i32⟩
  | 64 => ⟨S16384x2, .i1⟩
  | 65 => ⟨S_, .i1⟩
  | 66 => ⟨S16384, .i1⟩
  | 67 => ⟨S1x512x2048, .f32⟩
  | 68 => ⟨S512x2048, .f32⟩
  | 69 => ⟨S16384x2048, .f32⟩
  | 70 => ⟨S1x2048, .f32⟩
  | 71 => ⟨S2048, .f32⟩
  | 72 => ⟨S1x2048, .f32⟩
  | 73 => ⟨S16384x2048, .f32⟩
  | 74 => ⟨S16384x2048, .f32⟩
  | 75 => ⟨S_, .f32⟩
  | 76 => ⟨S16384x2048, .f32⟩
  | 77 => ⟨S16384x2048, .f32⟩
  | 78 => ⟨S1x2048x512, .f32⟩
  | 79 => ⟨S2048x512, .f32⟩
  | 80 => ⟨S16384x512, .f32⟩
  | 81 => ⟨S1x512, .f32⟩
  | 82 => ⟨S512, .f32⟩
  | 83 => ⟨S1x512, .f32⟩
  | 84 => ⟨S16384x512, .f32⟩
  | 85 => ⟨S16384x512, .f32⟩
  | 86 => ⟨S16384x1, .i1⟩
  | 87 => ⟨S_, .f32⟩
  | 88 => ⟨S16384x512, .i1⟩
  | 89 => ⟨S16384x512, .f32⟩
  | 90 => ⟨S16384x512, .f32⟩
  | 91 => ⟨S16384x512, .f32⟩
  | 92 => ⟨S_, .i32⟩
  | 93 => ⟨S16384x2, .i32⟩
  | 94 => ⟨S16384x2, .i1⟩
  | 95 => ⟨S_, .i1⟩
  | 96 => ⟨S16384, .i1⟩
  | 97 => ⟨S1x512x2048, .f32⟩
  | 98 => ⟨S512x2048, .f32⟩
  | 99 => ⟨S16384x2048, .f32⟩
  | 100 => ⟨S1x2048, .f32⟩
  | 101 => ⟨S2048, .f32⟩
  | 102 => ⟨S1x2048, .f32⟩
  | 103 => ⟨S16384x2048, .f32⟩
  | 104 => ⟨S16384x2048, .f32⟩
  | 105 => ⟨S_, .f32⟩
  | 106 => ⟨S16384x2048, .f32⟩
  | 107 => ⟨S16384x2048, .f32⟩
  | 108 => ⟨S1x2048x512, .f32⟩
  | 109 => ⟨S2048x512, .f32⟩
  | 110 => ⟨S16384x512, .f32⟩
  | 111 => ⟨S1x512, .f32⟩
  | 112 => ⟨S512, .f32⟩
  | 113 => ⟨S1x512, .f32⟩
  | 114 => ⟨S16384x512, .f32⟩
  | 115 => ⟨S16384x512, .f32⟩
  | 116 => ⟨S16384x1, .i1⟩
  | 117 => ⟨S_, .f32⟩
  | 118 => ⟨S16384x512, .i1⟩
  | 119 => ⟨S16384x512, .f32⟩
  | 120 => ⟨S16384x512, .f32⟩
  | 121 => ⟨S16384x512, .f32⟩
  | 122 => ⟨S_, .f32⟩
  | 123 => ⟨S16384x512, .f32⟩
  | 124 => ⟨S16384x512, .f32⟩
  | 125 => ⟨S8x2048x512, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call2_cst : Ref sig .tc := ⟨.hbm, 53, rfl⟩
abbrev main_call2_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_call3_v0 : Ref sig .tc := ⟨.hbm, 66, rfl⟩
abbrev main_call3_v1 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_c_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call4_cst : Ref sig .tc := ⟨.hbm, 83, rfl⟩
abbrev main_call4_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_call5_v0 : Ref sig .tc := ⟨.hbm, 96, rfl⟩
abbrev main_call5_v1 : Ref sig .tc := ⟨.hbm, 97, rfl⟩
abbrev main_v70 : Ref sig .tc := ⟨.hbm, 98, rfl⟩
abbrev main_v71 : Ref sig .tc := ⟨.hbm, 99, rfl⟩
abbrev main_c_8 : Ref sig .tc := ⟨.hbm, 100, rfl⟩
abbrev main_v72 : Ref sig .tc := ⟨.hbm, 101, rfl⟩
abbrev main_v73 : Ref sig .tc := ⟨.hbm, 102, rfl⟩
abbrev main_c_9 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call6_cst : Ref sig .tc := ⟨.hbm, 113, rfl⟩
abbrev main_call6_v0 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_10 : Ref sig .tc := ⟨.hbm, 125, rfl⟩
abbrev main_call7_v0 : Ref sig .tc := ⟨.hbm, 126, rfl⟩
abbrev main_call7_v1 : Ref sig .tc := ⟨.hbm, 127, rfl⟩
abbrev main_v93 : Ref sig .tc := ⟨.hbm, 128, rfl⟩
abbrev main_v94 : Ref sig .tc := ⟨.hbm, 129, rfl⟩
abbrev main_c_11 : Ref sig .tc := ⟨.hbm, 130, rfl⟩
abbrev main_v95 : Ref sig .tc := ⟨.hbm, 131, rfl⟩
abbrev main_v96 : Ref sig .tc := ⟨.hbm, 132, rfl⟩
abbrev main_c_12 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call8_cst : Ref sig .tc := ⟨.hbm, 143, rfl⟩
abbrev main_call8_v0 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_13 : Ref sig .tc := ⟨.hbm, 155, rfl⟩
abbrev main_call9_v0 : Ref sig .tc := ⟨.hbm, 156, rfl⟩
abbrev main_call9_v1 : Ref sig .tc := ⟨.hbm, 157, rfl⟩
abbrev main_v116 : Ref sig .tc := ⟨.hbm, 158, rfl⟩
abbrev main_v117 : Ref sig .tc := ⟨.hbm, 159, rfl⟩
abbrev main_c_14 : Ref sig .tc := ⟨.hbm, 160, rfl⟩
abbrev main_v118 : Ref sig .tc := ⟨.hbm, 161, rfl⟩
abbrev main_v119 : Ref sig .tc := ⟨.hbm, 162, rfl⟩
abbrev main_c_15 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_call10_cst : Ref sig .tc := ⟨.hbm, 173, rfl⟩
abbrev main_call10_v0 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_16 : Ref sig .tc := ⟨.hbm, 185, rfl⟩
abbrev main_call11_v0 : Ref sig .tc := ⟨.hbm, 186, rfl⟩
abbrev main_call11_v1 : Ref sig .tc := ⟨.hbm, 187, rfl⟩
abbrev main_v139 : Ref sig .tc := ⟨.hbm, 188, rfl⟩
abbrev main_v140 : Ref sig .tc := ⟨.hbm, 189, rfl⟩
abbrev main_c_17 : Ref sig .tc := ⟨.hbm, 190, rfl⟩
abbrev main_v141 : Ref sig .tc := ⟨.hbm, 191, rfl⟩
abbrev main_v142 : Ref sig .tc := ⟨.hbm, 192, rfl⟩
abbrev main_c_18 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_call12_cst : Ref sig .tc := ⟨.hbm, 203, rfl⟩
abbrev main_call12_v0 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_19 : Ref sig .tc := ⟨.hbm, 215, rfl⟩
abbrev main_call13_v0 : Ref sig .tc := ⟨.hbm, 216, rfl⟩
abbrev main_call13_v1 : Ref sig .tc := ⟨.hbm, 217, rfl⟩
abbrev main_v162 : Ref sig .tc := ⟨.hbm, 218, rfl⟩
abbrev main_v163 : Ref sig .tc := ⟨.hbm, 219, rfl⟩
abbrev main_c_20 : Ref sig .tc := ⟨.hbm, 220, rfl⟩
abbrev main_v164 : Ref sig .tc := ⟨.hbm, 221, rfl⟩
abbrev main_v165 : Ref sig .tc := ⟨.hbm, 222, rfl⟩
abbrev main_c_21 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_call14_cst : Ref sig .tc := ⟨.hbm, 233, rfl⟩
abbrev main_call14_v0 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_22 : Ref sig .tc := ⟨.hbm, 245, rfl⟩
abbrev main_call15_v0 : Ref sig .tc := ⟨.hbm, 246, rfl⟩
abbrev main_call15_v1 : Ref sig .tc := ⟨.hbm, 247, rfl⟩
abbrev main_v185 : Ref sig .tc := ⟨.hbm, 248, rfl⟩
abbrev main_v186 : Ref sig .tc := ⟨.hbm, 249, rfl⟩
abbrev main_cst_23 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩

abbrev nD : Nat := 1
abbrev τ : Topo := Topo.v7x

variable {F : FTy → Type} [FloatOps F]

class Facts₀ : Prop where
  shapeCasts_S8x2048x512_S16384x512 : S8x2048x512.ShapeCasts S16384x512
  shapeCasts_S8x2048x2_S16384x2 : S8x2048x2.ShapeCasts S16384x2
  bcast_S_S16384x512 : S_.BroadcastsInDim S16384x512 (![] : Fin 0 → Fin S16384x512.rank)
  bcast_S_S16384x2 : S_.BroadcastsInDim S16384x2 (![] : Fin 0 → Fin S16384x2.rank)
  reducesTo_S16384x2_S16384_d1 : S16384x2.ReducesTo [1] S16384
  h_S_ : 0 < S_.numel
  slices_S8x512x2048_S1x512x2048_0_0_0 : S8x512x2048.Slices ![0, 0, 0] S1x512x2048
  shapeCasts_S1x512x2048_S512x2048 : S1x512x2048.ShapeCasts S512x2048
  slices_S8x2048_S1x2048_0_0 : S8x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  slices_S8x2048x512_S1x2048x512_0_0_0 : S8x2048x512.Slices ![0, 0, 0] S1x2048x512
  shapeCasts_S1x2048x512_S2048x512 : S1x2048x512.ShapeCasts S2048x512
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  slices_S8x512x2048_S1x512x2048_1_0_0 : S8x512x2048.Slices ![1, 0, 0] S1x512x2048
  slices_S8x2048_S1x2048_1_0 : S8x2048.Slices ![1, 0] S1x2048
  slices_S8x2048x512_S1x2048x512_1_0_0 : S8x2048x512.Slices ![1, 0, 0] S1x2048x512
  slices_S8x512_S1x512_1_0 : S8x512.Slices ![1, 0] S1x512
  slices_S8x512x2048_S1x512x2048_2_0_0 : S8x512x2048.Slices ![2, 0, 0] S1x512x2048
  slices_S8x2048_S1x2048_2_0 : S8x2048.Slices ![2, 0] S1x2048
  slices_S8x2048x512_S1x2048x512_2_0_0 : S8x2048x512.Slices ![2, 0, 0] S1x2048x512
  slices_S8x512_S1x512_2_0 : S8x512.Slices ![2, 0] S1x512
  slices_S8x512x2048_S1x512x2048_3_0_0 : S8x512x2048.Slices ![3, 0, 0] S1x512x2048
  slices_S8x2048_S1x2048_3_0 : S8x2048.Slices ![3, 0] S1x2048
  slices_S8x2048x512_S1x2048x512_3_0_0 : S8x2048x512.Slices ![3, 0, 0] S1x2048x512
  slices_S8x512_S1x512_3_0 : S8x512.Slices ![3, 0] S1x512
  slices_S8x512x2048_S1x512x2048_4_0_0 : S8x512x2048.Slices ![4, 0, 0] S1x512x2048
  slices_S8x2048_S1x2048_4_0 : S8x2048.Slices ![4, 0] S1x2048
  slices_S8x2048x512_S1x2048x512_4_0_0 : S8x2048x512.Slices ![4, 0, 0] S1x2048x512
  slices_S8x512_S1x512_4_0 : S8x512.Slices ![4, 0] S1x512
  slices_S8x512x2048_S1x512x2048_5_0_0 : S8x512x2048.Slices ![5, 0, 0] S1x512x2048
  slices_S8x2048_S1x2048_5_0 : S8x2048.Slices ![5, 0] S1x2048
  slices_S8x2048x512_S1x2048x512_5_0_0 : S8x2048x512.Slices ![5, 0, 0] S1x2048x512
  slices_S8x512_S1x512_5_0 : S8x512.Slices ![5, 0] S1x512
  slices_S8x512x2048_S1x512x2048_6_0_0 : S8x512x2048.Slices ![6, 0, 0] S1x512x2048
  slices_S8x2048_S1x2048_6_0 : S8x2048.Slices ![6, 0] S1x2048
  slices_S8x2048x512_S1x2048x512_6_0_0 : S8x2048x512.Slices ![6, 0, 0] S1x2048x512
  slices_S8x512_S1x512_6_0 : S8x512.Slices ![6, 0] S1x512
  slices_S8x512x2048_S1x512x2048_7_0_0 : S8x512x2048.Slices ![7, 0, 0] S1x512x2048
  slices_S8x2048_S1x2048_7_0 : S8x2048.Slices ![7, 0] S1x2048
  slices_S8x2048x512_S1x2048x512_7_0_0 : S8x2048x512.Slices ![7, 0, 0] S1x2048x512
  slices_S8x512_S1x512_7_0 : S8x512.Slices ![7, 0] S1x512
  shapeCasts_S16384x512_S8x2048x512 : S16384x512.ShapeCasts S8x2048x512
  dot_S16384x512_S512x2048_S16384x2048_1_0_0_1_n_n_wf : DotDims.WF S16384x512 S512x2048 S16384x2048 [1] [0] [0] [1] [] []
  dot_S16384x2048_S2048x512_S16384x512_1_0_0_1_n_n_wf : DotDims.WF S16384x2048 S2048x512 S16384x512 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf

class Facts : Prop extends Facts₀ where

variable [Facts]
-- ==== Proof.Spec.lean ====
/-
  What both programs compute, index by index, on the extended reals, and the one law that joins them.

  Tokens are flattened: `n : Fin 16384` runs over batch × sequence. For expert `e`, token `n`, output feature `d`:
    hidden e n h    = max (∑ k, x[n,k] · W1[e,k,h] + b1[e,h]) 0
    expertOut e n d = ∑ h, hidden e n h · W2[e,h,d] + b2[e,d]
  and token `n` is routed to expert `e` when one of its two assignment slots holds `e`.

  The kernel adds, expert after expert, `expertOut e n d · (r · ½)` with `r` one or zero as the token is routed or
  not; the reference adds `expertOut e n d` or zero and halves the total at the end. Halving is the product with
  the nonnegative finite `½`, which distributes over a sum of ANY extended reals, so the two agree with no
  finiteness assumption.
-/
import Idealize.ShloMosaic.PureOps.Ideal
import Idealize.ShloMosaic.Lib.ValueIdx

noncomputable section

namespace Cert.MoeSpec

open Idealize.ShloMosaic Idealize.ShloMosaic.ValueIdx

/-- The flattened activations [16384, 512], the flattened assignments [16384, 2], and the stacked parameters. -/
abbrev Sxf : Shape := ⟨2, ![16384, 512]⟩
abbrev Saf : Shape := ⟨2, ![16384, 2]⟩
abbrev Sw1 : Shape := ⟨3, ![8, 512, 2048]⟩
abbrev Sb1 : Shape := ⟨2, ![8, 2048]⟩
abbrev Sw2 : Shape := ⟨3, ![8, 2048, 512]⟩
abbrev Sb2 : Shape := ⟨2, ![8, 512]⟩

variable (xf : Sxf.Idx → EReal) (af : Saf.Idx → BitVec 32)
  (W1 : Sw1.Idx → EReal) (b1 : Sb1.Idx → EReal) (W2 : Sw2.Idx → EReal) (b2 : Sb2.Idx → EReal)

/-- The first layer of expert `e` at token `n`, hidden unit `h`, after the rectifier. -/
def hidden (e : Fin 8) (n : Fin 16384) (h : Fin 2048) : EReal :=
  max ((∑ k : Fin 512, xf (ix2 n k) * W1 (ix3 e k h)) + b1 (ix2 e h)) 0

/-- Expert `e`'s output at token `n`, feature `d`. -/
def expertOut (e : Fin 8) (n : Fin 16384) (d : Fin 512) : EReal :=
  (∑ h : Fin 2048, hidden xf W1 b1 e n h * W2 (ix3 e h d)) + b2 (ix2 e d)

/-- Token `n` is routed to expert `e`: one of its two slots holds the word `e`. -/
def routed (e : Fin 8) (n : Fin 16384) : Prop :=
  af (ix2 n 0) = BitVec.ofNat 32 e.val ∨ af (ix2 n 1) = BitVec.ofNat 32 e.val

instance (e : Fin 8) (n : Fin 16384) : Decidable (routed af e n) := by unfold routed; infer_instance

/-- One half, as an extended real. -/
def half : EReal := ((1 / 2 : ℝ) : EReal)

/-- Adding the first `j` of eight terms, left to right, from zero. -/
def accum (f : Fin 8 → EReal) : ℕ → EReal
  | 0 => 0
  | j + 1 => accum f j + (if h : j < 8 then f ⟨j, h⟩ else 0)

/-- The kernel's value: each expert's output weighted by the routing indicator times one half. -/
def kernelVal (n : Fin 16384) (d : Fin 512) : EReal :=
  accum (fun e => expertOut xf W1 b1 W2 b2 e n d * ((if routed af e n then 1 else 0) * half)) 8

/-- The reference's value: the routed experts' outputs summed, then halved. -/
def refVal (n : Fin 16384) (d : Fin 512) : EReal :=
  accum (fun e => if routed af e n then expertOut xf W1 b1 W2 b2 e n d else 0) 8 * half

theorem half_nonneg : (0 : EReal) ≤ half := by
  unfold half; exact_mod_cast (by norm_num : (0 : ℝ) ≤ 1 / 2)

theorem half_ne_top : half ≠ ⊤ := EReal.coe_ne_top _

/-- Halving distributes over the left-to-right sum, whatever the terms. -/
theorem accum_mul_half (f : Fin 8 → EReal) (j : ℕ) :
    accum f j * half = accum (fun e => f e * half) j := by
  induction j with
  | zero => simp [accum]
  | succ j ih =>
    rw [accum, accum, EReal.right_distrib_of_nonneg_of_ne_top half_nonneg half_ne_top, ih]
    congr 1
    by_cases h : j < 8
    · simp [h]
    · simp [h]

/-- The two values agree: a routed expert contributes `out · (1 · ½) = out · ½`, an unrouted one
    `out · (0 · ½) = 0 = 0 · ½`. -/
theorem kernelVal_eq_refVal (n : Fin 16384) (d : Fin 512) :
    kernelVal xf af W1 b1 W2 b2 n d = refVal xf af W1 b1 W2 b2 n d := by
  unfold kernelVal refVal
  rw [accum_mul_half]
  congr 1
  funext e
  by_cases h : routed af e n
  · simp [h]
  · simp [h]

/-- The kernel's and the reference's values as flat [16384, 512] arrays. -/
def kernelArr : Sxf.Idx → EReal := fun i => kernelVal xf af W1 b1 W2 b2 (i 0) (i 1)

def refArr : Sxf.Idx → EReal := fun i => refVal xf af W1 b1 W2 b2 (i 0) (i 1)

theorem kernelArr_apply (n : Fin 16384) (d : Fin 512) :
    kernelArr xf af W1 b1 W2 b2 (ix2 n d) = kernelVal xf af W1 b1 W2 b2 n d := rfl

theorem refArr_apply (n : Fin 16384) (d : Fin 512) :
    refArr xf af W1 b1 W2 b2 (ix2 n d) = refVal xf af W1 b1 W2 b2 n d := rfl

theorem kernelArr_eq_refArr : kernelArr xf af W1 b1 W2 b2 = refArr xf af W1 b1 W2 b2 :=
  funext fun i => kernelVal_eq_refVal xf af W1 b1 W2 b2 (i 0) (i 1)

end Cert.MoeSpec

end
-- ==== Proof.KTrip.lean ====
/-
  What one grid point's body leaves in its output block, as a pure recursion over the eight experts.

  The body loads the point's activation block `x0` [256, 512] and mask block `x1` [256, 8], then runs a counted loop
  of eight trips carrying an accumulator [256, 512] from zero; trip `k` loads expert `k`'s rows of the four stacked
  parameter arrays and yields the accumulator plus that expert's weighted output; the carried value after the
  last trip is stored over the whole output block. So the block is the eighth iterate of one step function.
-/
import proofs.«406470_j58420145160626_2_alg».proof.Proof.Gen.KernelIdeal.Frame
import Idealize.ShloMosaic.Lib.Pipeline.Value

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros2 : (![0, 0] : Fin 2 → Nat) = fun _ => 0 := funext fun a => by fin_cases a <;> rfl

/-- The loop runs eight trips. -/
theorem trips_eq : k0_t1_loop.trips = 8 := by decide

/-- Expert `k`'s rows of the stacked parameter arrays, each keeping a leading axis of extent one. -/
def w1At (x2 : Vec F S8x512x2048 .bf16) (k : Fin k0_t1_loop.trips) : Vec F S1x512x2048 .bf16 :=
  View.ld x2 (Rect.unit (s := S8x512x2048) (k0_off1 k) S1x512x2048.size (k0_off1_inb k))

def w2At (x3 : Vec F S8x2048x512 .bf16) (k : Fin k0_t1_loop.trips) : Vec F S1x2048x512 .bf16 :=
  View.ld x3 (Rect.unit (s := S8x2048x512) (k0_off2 k) S1x2048x512.size (k0_off2_inb k))

def b1At (x4 : Vec F S8x2048 .f32) (k : Fin k0_t1_loop.trips) : Vec F S1x2048 .f32 :=
  View.ld x4 (Rect.unit (s := S8x2048) (k0_off3 k) S1x2048.size (k0_off3_inb k))

def b2At (x5 : Vec F S8x512 .f32) (k : Fin k0_t1_loop.trips) : Vec F S1x512 .f32 :=
  View.ld x5 (Rect.unit (s := S8x512) (k0_off4 k) S1x512.size (k0_off4_inb k))

/-- One trip: the accumulator plus expert `k`'s weighted output (the body's arithmetic, as printed). -/
def step (x0 : Vec F S256x512 .f32) (x1 : Vec F S256x8 .f32) (x2 : Vec F S8x512x2048 .bf16) (x3 : Vec F S8x2048x512 .bf16) (x4 : Vec F S8x2048 .f32) (x5 : Vec F S8x512 .f32) (k : Fin k0_t1_loop.trips) (acc : FVec F S256x512 .f32) : FVec F S256x512 .f32 :=
  k0_pay2 x0 x1 k acc (w1At x2 k) (w2At x3 k) (b1At x4 k) (b2At x5 k)

/-- The accumulator before trip `j`, from the zero splat. -/
def carried (x0 : Vec F S256x512 .f32) (x1 : Vec F S256x8 .f32) (x2 : Vec F S8x512x2048 .bf16) (x3 : Vec F S8x2048x512 .bf16) (x4 : Vec F S8x2048 .f32) (x5 : Vec F S8x512 .f32) : ℕ → FVec F S256x512 .f32
  | 0 => k0_pay1
  | j + 1 => if h : j < k0_t1_loop.trips then step x0 x1 x2 x3 x4 x5 ⟨j, h⟩ (carried x0 x1 x2 x3 x4 x5 j) else carried x0 x1 x2 x3 x4 x5 j

/-- The loop's carried value, as the run states it over whole staging buffers holding `x2 … x5`, is that recursion:
    a trip's yield is the body's arithmetic of the loads at the trip's offsets, and a load through a whole buffer
    reads its contents. -/
theorem st_eq_carried (c : Dev nD) (i : grid0.Coords) (arg1 : Memref sig .tc .vmem S256x512 .f32) (harg1 : arg1.IsWhole) (arg2 : Memref sig .tc .vmem S256x8 .f32) (harg2 : arg2.IsWhole) (arg3 : Memref sig .tc .vmem S8x512x2048 .bf16) (harg3 : arg3.IsWhole) (arg4 : Memref sig .tc .vmem S8x2048x512 .bf16) (harg4 : arg4.IsWhole) (arg5 : Memref sig .tc .vmem S8x2048 .f32) (harg5 : arg5.IsWhole) (arg6 : Memref sig .tc .vmem S8x512 .f32) (harg6 : arg6.IsWhole) (arg7 : Memref sig .tc .vmem S256x512 .f32) (harg7 : arg7.IsWhole) (x0 : Vec F S256x512 .f32) (x1 : Vec F S256x8 .f32) (x2 : Vec F S8x512x2048 .bf16) (x3 : Vec F S8x2048x512 .bf16) (x4 : Vec F S8x2048 .f32) (x5 : Vec F S8x512 .f32) (j : ℕ) :
    st_k0_t1 (F := F) Variants.none c none i arg1 harg1 arg2 harg2 arg3 harg3 arg4 harg4 arg5 harg5 arg6 harg6 arg7 harg7 x0 x1 (harg3.unread x2) (harg4.unread x3) (harg5.unread x4) (harg6.unread x5) k0_pay1 j
      = carried x0 x1 x2 x3 x4 x5 j := by
  induction j with
  | zero => rfl
  | succ j ih =>
    rw [st_k0_t1.eq_2, carried]
    unfold st_k0_t1Step
    by_cases h : j < k0_t1_loop.trips
    · rw [dif_pos h, dif_pos h, ih]
      unfold tripR_k0_t1 trip_k0_t1
      dsimp only
      simp only [View.readAt_eq_ld, harg3.read_unread, harg4.read_unread, harg5.read_unread, harg6.read_unread]
      rfl
    · rw [dif_neg h, dif_neg h, ih]

/-- What the body leaves in the output block at any point, on any whole staging buffers: the recursion's eighth value. -/
theorem out_eq_carried (c : Dev nD) (i : grid0.Coords) (arg1 : Memref sig .tc .vmem S256x512 .f32) (harg1 : arg1.IsWhole) (arg2 : Memref sig .tc .vmem S256x8 .f32) (harg2 : arg2.IsWhole) (arg3 : Memref sig .tc .vmem S8x512x2048 .bf16) (harg3 : arg3.IsWhole) (arg4 : Memref sig .tc .vmem S8x2048x512 .bf16) (harg4 : arg4.IsWhole) (arg5 : Memref sig .tc .vmem S8x2048 .f32) (harg5 : arg5.IsWhole) (arg6 : Memref sig .tc .vmem S8x512 .f32) (harg6 : arg6.IsWhole) (arg7 : Memref sig .tc .vmem S256x512 .f32) (harg7 : arg7.IsWhole) (x0 : Vec F S256x512 .f32) (x1 : Vec F S256x8 .f32) (x2 : Vec F S8x512x2048 .bf16) (x3 : Vec F S8x2048x512 .bf16) (x4 : Vec F S8x2048 .f32) (x5 : Vec F S8x512 .f32) :
    out0_A_6 (F := F) c i arg1 harg1 arg2 harg2 arg3 harg3 arg4 harg4 arg5 harg5 arg6 harg6 arg7 harg7 x0 x1 x2 x3 x4 x5 = carried x0 x1 x2 x3 x4 x5 8 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  rw [View.canon_unit_zero zeros2]
  simp only [View.readAt_eq_ld, harg1.read_unread, harg2.read_unread, View.ld_unit_zero (S := S256x512) zeros2, View.ld_unit_zero (S := S256x8) zeros2]
  exact st_eq_carried c i arg1 harg1 arg2 harg2 arg3 harg3 arg4 harg4 arg5 harg5 arg6 harg6 arg7 harg7 x0 x1 x2 x3 x4 x5 _

end Cert.KernelIdeal.Moe

end
-- ==== Proof.KMatmul.lean ====
/-
  The body's two matrix products at an entry, on the extended reals: with a zero accumulator a product's entry
  (p, c) is the sum over the contracted axis of row p's entries times column c's.
-/
import proofs.«406470_j58420145160626_2_alg».proof.Proof.Gen.KernelIdeal
import Idealize.ShloMosaic.Lib.ValueIdx
import Idealize.ShloMosaic.PureOps.Ideal.Laws

noncomputable section

namespace Cert.KernelIdeal.Moe

open Cert.KernelIdeal Cert.KernelIdeal.Gen Idealize.ShloMosaic Idealize.ShloMosaic.TcCoe Idealize.ShloMosaic.ValueIdx

theorem lhsA_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhsA_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhsA_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhsA_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A [256, 512] × [512, 2048] product into the zero accumulator, at row `p` and column `c`: the sum over the
    contracted axis of the products of the row's and the column's entries. -/
theorem matmulA_apply (l : FVec Ideal S256x512 .bf16) (r : FVec Ideal S512x2048 .bf16) (p : Fin 256) (c : Fin 2048) :
    matmul dot_S256x512_S512x2048_S256x2048_1_0_0_1_n_n none l r (constant S256x2048 .f32 0x00000000#32) (ix2 p c)
      = ∑ k : Fin 512, l (ix2 p k) * r (ix2 k c) := by
  simp only [matmul]
  rw [Ideal.matmul_constant_zero_apply, ← Equiv.sum_comp (ValueIdx.contrEquiv1 dot_S256x512_S512x2048_S256x2048_1_0_0_1_n_n 512 rfl rfl).symm]
  refine Finset.sum_congr rfl fun k _ => ?_
  have hk := ValueIdx.contrEquiv1_symm_val dot_S256x512_S512x2048_S256x2048_1_0_0_1_n_n 512 rfl rfl k
  have el : dot_S256x512_S512x2048_S256x2048_1_0_0_1_n_n.lhsIdx (ix2 p c) ((ValueIdx.contrEquiv1 dot_S256x512_S512x2048_S256x2048_1_0_0_1_n_n 512 rfl rfl).symm k) = ix2 p k := funext fun a => Fin.ext (by
    match a with
    | ⟨0, _⟩ => exact lhsA_0 _ _
    | ⟨1, _⟩ => exact (lhsA_1 _ _).trans hk)
  have er : dot_S256x512_S512x2048_S256x2048_1_0_0_1_n_n.rhsIdx (ix2 p c) ((ValueIdx.contrEquiv1 dot_S256x512_S512x2048_S256x2048_1_0_0_1_n_n 512 rfl rfl).symm k) = ix2 k c := funext fun a => Fin.ext (by
    match a with
    | ⟨0, _⟩ => exact (rhsA_0 _ _).trans hk
    | ⟨1, _⟩ => exact rhsA_1 _ _)
  rw [el, er]

theorem lhsB_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhsB_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhsB_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhsB_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- A [256, 2048] × [2048, 512] product into the zero accumulator, at row `p` and column `c`: the sum over the
    contracted axis of the products of the row's and the column's entries. -/
theorem matmulB_apply (l : FVec Ideal S256x2048 .bf16) (r : FVec Ideal S2048x512 .bf16) (p : Fin 256) (c : Fin 512) :
    matmul dot_S256x2048_S2048x512_S256x512_1_0_0_1_n_n none l r (constant S256x512 .f32 0x00000000#32) (ix2 p c)
      = ∑ k : Fin 2048, l (ix2 p k) * r (ix2 k c) := by
  simp only [matmul]
  rw [Ideal.matmul_constant_zero_apply, ← Equiv.sum_comp (ValueIdx.contrEquiv1 dot_S256x2048_S2048x512_S256x512_1_0_0_1_n_n 2048 rfl rfl).symm]
  refine Finset.sum_congr rfl fun k _ => ?_
  have hk := ValueIdx.contrEquiv1_symm_val dot_S256x2048_S2048x512_S256x512_1_0_0_1_n_n 2048 rfl rfl k
  have el : dot_S256x2048_S2048x512_S256x512_1_0_0_1_n_n.lhsIdx (ix2 p c) ((ValueIdx.contrEquiv1 dot_S256x2048_S2048x512_S256x512_1_0_0_1_n_n 2048 rfl rfl).symm k) = ix2 p k := funext fun a => Fin.ext (by
    match a with
    | ⟨0, _⟩ => exact lhsB_0 _ _
    | ⟨1, _⟩ => exact (lhsB_1 _ _).trans hk)
  have er : dot_S256x2048_S2048x512_S256x512_1_0_0_1_n_n.rhsIdx (ix2 p c) ((ValueIdx.contrEquiv1 dot_S256x2048_S2048x512_S256x512_1_0_0_1_n_n 2048 rfl rfl).symm k) = ix2 k c := funext fun a => Fin.ext (by
    match a with
    | ⟨0, _⟩ => exact (rhsB_0 _ _).trans hk
    | ⟨1, _⟩ => exact rhsB_1 _ _)
  rw [el, er]

end Cert.KernelIdeal.Moe

end
-- ==== Proof.KPayload.lean ====
/-
  One trip of the body's loop at an entry, on the extended reals.

  With `w1, b1, w2, b2` one expert's parameter rows (each with a leading axis of extent one), the trip adds to the
  accumulator's entry (p, d) the product of
    the expert's output  ∑ h, max (∑ k, x0[p,k] · w1[0,k,h] + b1[0,h]) 0 · w2[0,h,d] + b2[0,d]
  and the mask column   ∑ e', x1[p,e'] · [e' = trip],
  the one-hot over the eight lanes picking the trip's own column of the mask block.
-/
import proofs.«406470_j58420145160626_2_alg».proof.Proof.Gen.KernelIdeal.Skeleton
import proofs.«406470_j58420145160626_2_alg».proof.Proof.KMatmul
import Idealize.ShloMosaic.Lib.ValueLayout
import Idealize.ShloMosaic.Lib.Pipeline.Value

noncomputable section

namespace Cert.KernelIdeal.Moe

open Cert.KernelIdeal Cert.KernelIdeal.Gen Idealize.ShloMosaic Idealize.ShloMosaic.TcCoe Idealize.ShloMosaic.ValueIdx

section AnyFamily
variable {F : FTy → Type} [FloatOps F]

/-- The hidden layer over the block: rectified `x0 · w1 + b1`. -/
def hidV (x0 : Vec F S256x512 .f32) (w1 : Vec F S1x512x2048 .bf16) (b1 : Vec F S1x2048 .f32) : FVec F S256x2048 .f32 :=
  maximumf (addf (matmul dot_S256x512_S512x2048_S256x2048_1_0_0_1_n_n none (truncf .bf16 (shapeCast S256x512 x0 shapeCasts_S256x512_S256x512) bitsLt_bf16_f32) (shapeCast S512x2048 w1 shapeCasts_S1x512x2048_S512x2048) (constant S256x2048 .f32 0x00000000#32))
      (broadcastTo S256x2048 (shapeCast S1x2048 (shapeCast S2048 b1 shapeCasts_S1x2048_S2048) shapeCasts_S2048_S1x2048) broadcasts_S1x2048_S256x2048))
    (broadcast S256x2048 (Scalar.ofBits .f32 0x00000000#32))

/-- The expert's output over the block: `hid · w2 + b2`. -/
def outV (hid : FVec F S256x2048 .f32) (w2 : Vec F S1x2048x512 .bf16) (b2 : Vec F S1x512 .f32) : FVec F S256x512 .f32 :=
  addf (matmul dot_S256x2048_S2048x512_S256x512_1_0_0_1_n_n none (truncf .bf16 hid bitsLt_bf16_f32) (shapeCast S2048x512 w2 shapeCasts_S1x2048x512_S2048x512) (constant S256x512 .f32 0x00000000#32))
    (broadcastTo S256x512 (shapeCast S1x512 (shapeCast S512 b2 shapeCasts_S1x512_S512) shapeCasts_S512_S1x512) broadcasts_S1x512_S256x512)

/-- The one-hot row over the eight lanes at trip `k`. -/
def onehotV (k : Fin k0_t1_loop.trips) : FVec F S1x8 .f32 :=
  sitofp .f32 (extui 32 (cmpi .eq (iota .tc S1x8 32 [1] iota_S1x8_d1_w32) (broadcast S1x8 (Scf.iv 0#32 1#32 k))) natLt_1_32)

/-- The trip's column of the mask block, spread over the 512 features. -/
def mcolV (x1 : Vec F S256x8 .f32) (k : Fin k0_t1_loop.trips) : FVec F S256x512 .f32 :=
  broadcastTo S256x512 (shapeCast S256x1 (multiReduction .add [1] S256 (mulf (shapeCast S256x8 x1 shapeCasts_S256x8_S256x8) (broadcastTo S256x8 (onehotV k) broadcasts_S1x8_S256x8)) 0x00000000#32 reduces_S256x8_S256 (.inl rfl) rfl) shapeCasts_S256_S256x1) broadcasts_S256x1_S256x512

/-- The printed arithmetic of one trip is: accumulator + output · mask column. -/
theorem pay_eq (x0 : Vec F S256x512 .f32) (x1 : Vec F S256x8 .f32) (k : Fin k0_t1_loop.trips) (acc : FVec F S256x512 .f32)
    (w1 : Vec F S1x512x2048 .bf16) (w2 : Vec F S1x2048x512 .bf16) (b1 : Vec F S1x2048 .f32) (b2 : Vec F S1x512 .f32) :
    k0_pay2 x0 x1 k acc w1 w2 b1 b2 = addf acc (mulf (outV (hidV x0 w1 b1) w2 b2) (mcolV x1 k)) := rfl

end AnyFamily

/-! ## At the extended reals -/

theorem hidV_apply (x0 : Vec Ideal S256x512 .f32) (w1 : Vec Ideal S1x512x2048 .bf16) (b1 : Vec Ideal S1x2048 .f32) (p : Fin 256) (h : Fin 2048) :
    hidV x0 w1 b1 (ix2 p h) = max ((∑ k : Fin 512, x0 (ix2 p k) * w1 (ix3 (0 : Fin 1) k h)) + b1 (ix2 (0 : Fin 1) h)) 0 := by
  unfold hidV
  rw [maximumf_apply, addf_apply, matmulA_apply, broadcastTo_1b_ab_apply, shapeCast_a_1a_apply, shapeCast_1a_a_apply, broadcast_apply]
  simp only [truncf_apply, shapeCast_self, shapeCast_1ab_ab_apply]
  show max _ (Ideal.ofBits .f32 0x00000000#32) = _
  rw [Ideal.ofBits_zero_f32]

theorem outV_apply (hid : FVec Ideal S256x2048 .f32) (w2 : Vec Ideal S1x2048x512 .bf16) (b2 : Vec Ideal S1x512 .f32) (p : Fin 256) (d : Fin 512) :
    outV hid w2 b2 (ix2 p d) = (∑ h : Fin 2048, hid (ix2 p h) * w2 (ix3 (0 : Fin 1) h d)) + b2 (ix2 (0 : Fin 1) d) := by
  unfold outV
  rw [addf_apply, matmulB_apply, broadcastTo_1b_ab_apply, shapeCast_a_1a_apply, shapeCast_1a_a_apply]
  simp only [truncf_apply, shapeCast_1ab_ab_apply]

/-- The lane compare as a word fact: lane `e'` meets trip `k`'s induction value exactly when `e' = k`. -/
theorem onehot_word : ∀ (e' : Fin 8) (k : Fin k0_t1_loop.trips),
    ((IntOp.cmpi .eq (BitVec.ofNat 32 e'.val) (Scf.iv 0#32 1#32 k.val)).setWidth 32).toInt = if e'.val = k.val then 1 else 0 := by
  decide +kernel

theorem onehotV_apply (k : Fin k0_t1_loop.trips) (u : Fin 1) (e' : Fin 8) :
    onehotV (F := Ideal) k (ix2 u e') = if e'.val = k.val then 1 else 0 := by
  unfold onehotV
  rw [sitofp_apply, extui_apply]
  show ((((IntOp.cmpi .eq (iota .tc S1x8 32 [1] iota_S1x8_d1_w32 (ix2 u e')) (Scf.iv 0#32 1#32 k.val)).setWidth 32).toInt : ℝ) : EReal) = _
  rw [iota_single_apply]
  show ((((IntOp.cmpi .eq (BitVec.ofNat 32 e'.val) (Scf.iv 0#32 1#32 k.val)).setWidth 32).toInt : ℝ) : EReal) = _
  rw [onehot_word e' k]
  by_cases h : e'.val = k.val
  · simp [h]
  · simp [h]

theorem mcolV_apply (x1 : Vec Ideal S256x8 .f32) (k : Fin k0_t1_loop.trips) (p : Fin 256) (d : Fin 512) :
    mcolV x1 k (ix2 p d) = ∑ e' : Fin 8, x1 (ix2 p e') * (if e'.val = k.val then 1 else 0) := by
  unfold mcolV
  rw [broadcastTo_apply _ broadcasts_S256x1_S256x512 (ix2 p d) (ix2 p (0 : Fin 1)) (fun a => by
      match a with
      | ⟨0, _⟩ => rfl
      | ⟨1, _⟩ => rfl)]
  rw [shapeCast_apply _ shapeCasts_S256_S256x1 (ix2 p (0 : Fin 1)) (ix1 p) (by
      rw [Shape.rowMajor_val_one, Shape.rowMajor_val_two]; show p.val = p.val * 1 + 0; omega)]
  refine (Ideal.multiReduction_add_single _ (0x00000000#32 : BitVec 32) reduces_S256x8_S256 _ _ (ix1 p)).trans ?_
  show ∑ e' : Fin 8, _ = _
  refine Finset.sum_congr rfl fun e' _ => ?_
  have hl : reduces_S256x8_S256.lift (ix1 p) e' = ix2 p e' := funext fun a => Fin.ext (by
    match a with
    | ⟨0, _⟩ => rfl
    | ⟨1, _⟩ => rfl)
  rw [hl, mulf_apply, shapeCast_self, broadcastTo_1b_ab_apply, onehotV_apply]

/-- ONE TRIP AT AN ENTRY. -/
theorem pay_apply (x0 : Vec Ideal S256x512 .f32) (x1 : Vec Ideal S256x8 .f32) (k : Fin k0_t1_loop.trips) (acc : FVec Ideal S256x512 .f32)
    (w1 : Vec Ideal S1x512x2048 .bf16) (w2 : Vec Ideal S1x2048x512 .bf16) (b1 : Vec Ideal S1x2048 .f32) (b2 : Vec Ideal S1x512 .f32)
    (p : Fin 256) (d : Fin 512) :
    k0_pay2 x0 x1 k acc w1 w2 b1 b2 (ix2 p d)
      = acc (ix2 p d)
        + ((∑ h : Fin 2048, max ((∑ kk : Fin 512, x0 (ix2 p kk) * w1 (ix3 (0 : Fin 1) kk h)) + b1 (ix2 (0 : Fin 1) h)) 0 * w2 (ix3 (0 : Fin 1) h d))
            + b2 (ix2 (0 : Fin 1) d))
          * (∑ e' : Fin 8, x1 (ix2 p e') * (if e'.val = k.val then 1 else 0)) := by
  rw [pay_eq, addf_apply, mulf_apply, outV_apply, mcolV_apply]
  simp only [hidV_apply]

end Cert.KernelIdeal.Moe

end
-- ==== Proof.KFold.lean ====
/-
  The output block of one grid point, entry by entry, on the extended reals.

  Trip `k` of the body's loop reads expert `k`'s rows of the stacked parameters, so by induction over the trips the
  block's entry (p, d) is the left-to-right sum over the experts `e` of
    (∑ h, max (∑ k, x0[p,k] · W1[e,k,h] + b1[e,h]) 0 · W2[e,h,d] + b2[e,d]) · x1[p,e],
  the one-hot lane sum having picked column `e` of the mask block.
-/
import proofs.«406470_j58420145160626_2_alg».proof.Proof.KTrip
import proofs.«406470_j58420145160626_2_alg».proof.Proof.KPayload
import proofs.«406470_j58420145160626_2_alg».proof.Proof.Spec

noncomputable section

namespace Cert.KernelIdeal.Moe

open Cert.KernelIdeal Cert.KernelIdeal.Gen Idealize.ShloMosaic Idealize.ShloMosaic.TcCoe Idealize.ShloMosaic.ValueIdx

/-- A trip number as an expert number. -/
abbrev expertOf (k : Fin k0_t1_loop.trips) : Fin 8 := Fin.cast trips_eq k

theorem w1At_apply (x : Vec Ideal S8x512x2048 .bf16) (k : Fin k0_t1_loop.trips) (kk : Fin 512) (h : Fin 2048) :
    w1At x k (ix3 (0 : Fin 1) kk h) = x (ix3 (expertOf k) kk h) := by
  unfold w1At
  show x ((Rect.unit (s := S8x512x2048) (k0_off1 k) S1x512x2048.size (k0_off1_inb k)).idx (ix3 (0 : Fin 1) kk h)) = _
  have e0 : k0_off1 k 0 = k.val := congrFun (k0_off1_eq k) 0
  have e1 : k0_off1 k 1 = 0 := congrFun (k0_off1_eq k) 1
  have e2 : k0_off1 k 2 = 0 := congrFun (k0_off1_eq k) 2
  refine congrArg x (funext fun a => Fin.ext ?_)
  match a with
  | ⟨0, _⟩ => show k0_off1 k 0 + 1 * 0 = k.val; omega
  | ⟨1, _⟩ => show k0_off1 k 1 + 1 * kk.val = kk.val; omega
  | ⟨2, _⟩ => show k0_off1 k 2 + 1 * h.val = h.val; omega

theorem w2At_apply (x : Vec Ideal S8x2048x512 .bf16) (k : Fin k0_t1_loop.trips) (h : Fin 2048) (d : Fin 512) :
    w2At x k (ix3 (0 : Fin 1) h d) = x (ix3 (expertOf k) h d) := by
  unfold w2At
  show x ((Rect.unit (s := S8x2048x512) (k0_off2 k) S1x2048x512.size (k0_off2_inb k)).idx (ix3 (0 : Fin 1) h d)) = _
  have e0 : k0_off2 k 0 = k.val := congrFun (k0_off2_eq k) 0
  have e1 : k0_off2 k 1 = 0 := congrFun (k0_off2_eq k) 1
  have e2 : k0_off2 k 2 = 0 := congrFun (k0_off2_eq k) 2
  refine congrArg x (funext fun a => Fin.ext ?_)
  match a with
  | ⟨0, _⟩ => show k0_off2 k 0 + 1 * 0 = k.val; omega
  | ⟨1, _⟩ => show k0_off2 k 1 + 1 * h.val = h.val; omega
  | ⟨2, _⟩ => show k0_off2 k 2 + 1 * d.val = d.val; omega

theorem b1At_apply (x : Vec Ideal S8x2048 .f32) (k : Fin k0_t1_loop.trips) (h : Fin 2048) :
    b1At x k (ix2 (0 : Fin 1) h) = x (ix2 (expertOf k) h) := by
  unfold b1At
  show x ((Rect.unit (s := S8x2048) (k0_off3 k) S1x2048.size (k0_off3_inb k)).idx (ix2 (0 : Fin 1) h)) = _
  have e0 : k0_off3 k 0 = k.val := congrFun (k0_off3_eq k) 0
  have e1 : k0_off3 k 1 = 0 := congrFun (k0_off3_eq k) 1
  refine congrArg x (funext fun a => Fin.ext ?_)
  match a with
  | ⟨0, _⟩ => show k0_off3 k 0 + 1 * 0 = k.val; omega
  | ⟨1, _⟩ => show k0_off3 k 1 + 1 * h.val = h.val; omega

theorem b2At_apply (x : Vec Ideal S8x512 .f32) (k : Fin k0_t1_loop.trips) (d : Fin 512) :
    b2At x k (ix2 (0 : Fin 1) d) = x (ix2 (expertOf k) d) := by
  unfold b2At
  show x ((Rect.unit (s := S8x512) (k0_off4 k) S1x512.size (k0_off4_inb k)).idx (ix2 (0 : Fin 1) d)) = _
  have e0 : k0_off4 k 0 = k.val := congrFun (k0_off4_eq k) 0
  have e1 : k0_off4 k 1 = 0 := congrFun (k0_off4_eq k) 1
  refine congrArg x (funext fun a => Fin.ext ?_)
  match a with
  | ⟨0, _⟩ => show k0_off4 k 0 + 1 * 0 = k.val; omega
  | ⟨1, _⟩ => show k0_off4 k 1 + 1 * d.val = d.val; omega

/-- The one-hot lane sum picks the trip's own column of the mask block. -/
theorem lane_sum (x1 : Vec Ideal S256x8 .f32) (k : Fin k0_t1_loop.trips) (p : Fin 256) :
    (∑ e' : Fin 8, x1 (ix2 p e') * (if e'.val = k.val then (1 : EReal) else 0)) = x1 (ix2 p (expertOf k)) := by
  rw [Finset.sum_eq_single (expertOf k)]
  · simp
  · intro b _ hb
    have : ¬ b.val = k.val := fun h => hb (Fin.ext h)
    simp [this]
  · intro h; exact absurd (Finset.mem_univ _) h

/-- Expert `e`'s weighted output at block entry (p, d). -/
def blockTerm (x0 : Vec Ideal S256x512 .f32) (x1 : Vec Ideal S256x8 .f32) (x2 : Vec Ideal S8x512x2048 .bf16) (x3 : Vec Ideal S8x2048x512 .bf16)
    (x4 : Vec Ideal S8x2048 .f32) (x5 : Vec Ideal S8x512 .f32) (p : Fin 256) (d : Fin 512) (e : Fin 8) : EReal :=
  ((∑ h : Fin 2048, max ((∑ kk : Fin 512, x0 (ix2 p kk) * x2 (ix3 e kk h)) + x4 (ix2 e h)) 0 * x3 (ix3 e h d)) + x5 (ix2 e d))
    * x1 (ix2 p e)

/-- One trip at an entry, over the stacked arrays. -/
theorem step_apply (x0 : Vec Ideal S256x512 .f32) (x1 : Vec Ideal S256x8 .f32) (x2 : Vec Ideal S8x512x2048 .bf16) (x3 : Vec Ideal S8x2048x512 .bf16)
    (x4 : Vec Ideal S8x2048 .f32) (x5 : Vec Ideal S8x512 .f32) (k : Fin k0_t1_loop.trips) (acc : FVec Ideal S256x512 .f32) (p : Fin 256) (d : Fin 512) :
    step x0 x1 x2 x3 x4 x5 k acc (ix2 p d) = acc (ix2 p d) + blockTerm x0 x1 x2 x3 x4 x5 p d (expertOf k) := by
  unfold step blockTerm
  rw [pay_apply, lane_sum]
  simp only [w1At_apply, w2At_apply, b1At_apply, b2At_apply]

/-- THE BLOCK AFTER `j` TRIPS, at an entry: the first `j` experts' weighted outputs added from zero. -/
theorem carried_apply (x0 : Vec Ideal S256x512 .f32) (x1 : Vec Ideal S256x8 .f32) (x2 : Vec Ideal S8x512x2048 .bf16) (x3 : Vec Ideal S8x2048x512 .bf16)
    (x4 : Vec Ideal S8x2048 .f32) (x5 : Vec Ideal S8x512 .f32) (p : Fin 256) (d : Fin 512) (j : ℕ) :
    carried x0 x1 x2 x3 x4 x5 j (ix2 p d) = Cert.MoeSpec.accum (blockTerm x0 x1 x2 x3 x4 x5 p d) j := by
  induction j with
  | zero =>
    show (k0_pay1 (F := Ideal)) (ix2 p d) = 0
    exact Ideal.ofBits_zero_f32
  | succ j ih =>
    rw [carried, Cert.MoeSpec.accum]
    by_cases h : j < k0_t1_loop.trips
    · have h8 : j < 8 := trips_eq ▸ h
      rw [dif_pos h, dif_pos h8, step_apply, ih]
      rfl
    · have h8 : ¬ j < 8 := fun h' => h (trips_eq ▸ h')
      rw [dif_neg h, dif_neg h8, ih, add_zero]

end Cert.KernelIdeal.Moe

end
-- ==== Proof.KEntry.lean ====
/-
  What the region finds in the arrays it stages, as functions of the program's arguments.

  Before the region the program flattens the activations and the assignments, builds the routing mask [16384, 8] —
  entry (n, e) is one half where one of token n's two slots holds the word e, else zero (the or over the slots of
  the compare with the lane's own number, as a float, times one half) — and changes the two weight stacks' float
  format, which on the extended reals changes nothing.
-/
import proofs.«406470_j58420145160626_2_alg».proof.Proof.Gen.KernelIdeal.Frame
import proofs.«406470_j58420145160626_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

section AnyFamily
variable {F : FTy → Type} [FloatOps F]
variable (m : (ℓ : Loc nD τ sig) → Buf (Elt F) ℓ)

/-- The flattened activations [16384, 512] and assignments [16384, 2]. -/
def xfArr (c : Dev nD) : (⟨S16384x512, .f32⟩ : BufTy).Contents (Elt F) :=
  shapeCast S16384x512 (m ((c : Thread nD τ).loc main_arg0)) shapeCasts_S8x2048x512_S16384x512

def afArr (c : Dev nD) : (⟨S16384x2, .i32⟩ : BufTy).Contents (Elt F) :=
  shapeCast S16384x2 (m ((c : Thread nD τ).loc main_arg1)) shapeCasts_S8x2048x2_S16384x2

/-- The routing bits [16384, 8]: the or, over a token's two slots, of "the slot holds the lane's number". -/
def routeBits (af : (⟨S16384x2, .i32⟩ : BufTy).Contents (Elt F)) : (⟨S16384x8, .i1⟩ : BufTy).Contents (Elt F) :=
  Host.reduce IntOp.ori
    (cmpi .eq (broadcastInDim S16384x2x8 ![0, 1, 2] bcast_S16384x2x1_S16384x2x8_0_1_2 (broadcastInDim S16384x2x1 ![0, 1] bcast_S16384x2_S16384x2x1_0_1 af))
      (broadcastInDim S16384x2x8 ![0, 1, 2] bcast_S1x1x8_S16384x2x8_0_1_2 (broadcastInDim S1x1x8 ![2] bcast_S8_S1x1x8_2 (iotaInDim S8 32 0))))
    (constantI S_ 1 0#1) reducesTo_S16384x2x8_S16384x8_d1 h_S_

theorem V_v0 (c : Dev nD) : V m c main_v0 = xfArr m c := by
  show StableHlo.after hostOps0 (fun b => m (c, b)) (Proc.devRef .tc main_v0) = _
  after_results
  rfl

theorem V_v11 (c : Dev nD) :
    V m c main_v11 = mulf (uitofp .f32 (routeBits (F := F) (afArr m c))) (broadcastInDim S16384x8 ![] bcast_S_S16384x8 (constant S_ .f32 0x3F000000#32)) := by
  show StableHlo.after hostOps0 (fun b => m (c, b)) (Proc.devRef .tc main_v11) = _
  after_results
  rfl

theorem V_v12 (c : Dev nD) : V m c main_v12 = truncf .bf16 (m ((c : Thread nD τ).loc main_arg2)) bitsLt_bf16_f32 := by
  show StableHlo.after hostOps0 (fun b => m (c, b)) (Proc.devRef .tc main_v12) = _
  after_results
  try rfl

theorem V_v13 (c : Dev nD) : V m c main_v13 = truncf .bf16 (m ((c : Thread nD τ).loc main_arg4)) bitsLt_bf16_f32 := by
  show StableHlo.after hostOps0 (fun b => m (c, b)) (Proc.devRef .tc main_v13) = _
  after_results
  try rfl

end AnyFamily

/-! ## The routing bits and the mask at an entry -/

instance : Std.Commutative (IntOp.ori (w := 1)) := ⟨fun x y => BitVec.or_comm x y⟩
instance : Std.Associative (IntOp.ori (w := 1)) := ⟨fun x y z => BitVec.or_assoc x y z⟩

theorem reduces_slots : S16384x2x8.Reduces [1] S16384x8 := by decide

theorem lift_slots (n : Fin 16384) (e : Fin 8) (k : Fin 2) : reduces_slots.lift (ix2 n e) k = ix3 n k e := by
  funext a
  match a with
  | ⟨0, _⟩ => exact Fin.ext rfl
  | ⟨1, _⟩ => exact Fin.ext rfl
  | ⟨2, _⟩ => exact Fin.ext rfl

theorem fold_ori_two (g : Fin 2 → BitVec 1) :
    (Finset.univ : Finset (Fin 2)).fold IntOp.ori 0#1 g = IntOp.ori (g 0) (g 1) := by
  rw [show (Finset.univ : Finset (Fin 2)) = {0, 1} from rfl, Finset.fold_insert (by decide), Finset.fold_singleton]
  simp [IntOp.ori]

/-- The compared words at (n, k, e): slot k of token n against the lane number e. -/
theorem slot_word {F : FTy → Type} [FloatOps F] (af : (⟨S16384x2, .i32⟩ : BufTy).Contents (Elt F)) (n : Fin 16384) (k : Fin 2) (e : Fin 8) :
    broadcastInDim S16384x2x8 ![0, 1, 2] bcast_S16384x2x1_S16384x2x8_0_1_2 (broadcastInDim S16384x2x1 ![0, 1] bcast_S16384x2_S16384x2x1_0_1 af) (ix3 n k e)
      = af (ix2 n k) := by
  rw [broadcastInDim_apply _ bcast_S16384x2x1_S16384x2x8_0_1_2 _ (ix3 n k e) (ix3 n k (0 : Fin 1)) (fun a => by
      match a with
      | ⟨0, _⟩ => rfl
      | ⟨1, _⟩ => rfl
      | ⟨2, _⟩ => rfl)]
  exact broadcastInDim_apply _ bcast_S16384x2_S16384x2x1_0_1 af (ix3 n k (0 : Fin 1)) (ix2 n k) (fun a => by
      match a with
      | ⟨0, _⟩ => rfl
      | ⟨1, _⟩ => rfl)

theorem lane_word {F : FTy → Type} [FloatOps F] (n : Fin 16384) (k : Fin 2) (e : Fin 8) :
    (broadcastInDim S16384x2x8 ![0, 1, 2] bcast_S1x1x8_S16384x2x8_0_1_2 (broadcastInDim S1x1x8 ![2] bcast_S8_S1x1x8_2 (iotaInDim S8 32 0))
        : (⟨S16384x2x8, .i32⟩ : BufTy).Contents (Elt F)) (ix3 n k e)
      = BitVec.ofNat 32 e.val := by
  rw [broadcastInDim_apply _ bcast_S1x1x8_S16384x2x8_0_1_2 _ (ix3 n k e) (ix3 (0 : Fin 1) (0 : Fin 1) e) (fun a => by
      match a with
      | ⟨0, _⟩ => rfl
      | ⟨1, _⟩ => rfl
      | ⟨2, _⟩ => rfl)]
  exact broadcastInDim_apply _ bcast_S8_S1x1x8_2 (iotaInDim S8 32 0) (ix3 (0 : Fin 1) (0 : Fin 1) e) (ix1 e) (fun a => by
      match a with
      | ⟨0, _⟩ => rfl)

/-- A bit fact: the or of two equality bits is one exactly when one of the equalities holds. -/
theorem ori_cmpi_eq (a b w : BitVec 32) :
    IntOp.ori (IntOp.cmpi .eq a w) (IntOp.cmpi .eq b w) = if a = w ∨ b = w then 1#1 else 0#1 := by
  have key : ∀ x y : BitVec 1, IntOp.ori x y = if x = 1#1 ∨ y = 1#1 then 1#1 else 0#1 := by decide
  rw [key]
  simp only [Idealize.ShloMosaic.StableHlo.Predicate.cmpi_eq_iff]

/-- THE ROUTING BIT at (n, e) says whether token n is routed to expert e. -/
theorem routeBits_apply {F : FTy → Type} [FloatOps F] (af : (⟨S16384x2, .i32⟩ : BufTy).Contents (Elt F)) (n : Fin 16384) (e : Fin 8) :
    routeBits (F := F) af (ix2 n e) = if Cert.MoeSpec.routed af e n then 1#1 else 0#1 := by
  unfold routeBits
  rw [Host.reduce_eq_fold_single IntOp.ori _ _ reducesTo_S16384x2x8_S16384x8_d1 reduces_slots h_S_]
  refine (fold_ori_two _).trans ?_
  show IntOp.ori (IntOp.cmpi .eq _ _) (IntOp.cmpi .eq _ _) = _
  rw [lift_slots, lift_slots, slot_word (F := F), slot_word (F := F), lane_word (F := F), lane_word (F := F), ori_cmpi_eq]
  rfl

/-- One half, as the program spells it. -/
theorem ofBits_half : Ideal.ofBits .f32 0x3F000000#32 = Cert.MoeSpec.half := by
  unfold Cert.MoeSpec.half
  simp [Ideal.ofBits, Ideal.ieee, -EReal.coe_mul]; norm_num

/-- THE MASK at (n, e): one half where the token is routed to the expert, else zero. -/
theorem mask_apply (af : (⟨S16384x2, .i32⟩ : BufTy).Contents (Elt Ideal)) (n : Fin 16384) (e : Fin 8) :
    mulf (uitofp (F := Ideal) .f32 (routeBits (F := Ideal) af)) (broadcastInDim S16384x8 ![] bcast_S_S16384x8 (constant (F := Ideal) S_ .f32 0x3F000000#32)) (ix2 n e)
      = (if Cert.MoeSpec.routed af e n then 1 else 0) * Cert.MoeSpec.half := by
  rw [mulf_apply]
  rw [broadcastInDim_apply _ bcast_S_S16384x8 _ (ix2 n e) ix0 (fun a => a.elim0), constant_apply, ofBits_half]
  congr 1
  show (((routeBits (F := Ideal) af (ix2 n e)).toNat : ℝ) : EReal) = _
  rw [routeBits_apply]
  by_cases h : Cert.MoeSpec.routed af e n
  · simp [h]
  · simp [h]

end Cert.KernelIdeal.Moe

end
-- ==== Proof.KValue.lean ====
/-
  The kernel program's result as one function of its arguments, on the extended reals.

  Grid point `t` (of 64) stages rows `256 t … 256 t + 255` of the flattened activations and of the mask, and the four
  parameter stacks whole; its body leaves in the output block the eight experts' weighted outputs added from zero
  (the induction over the loop's trips), which, entry by entry, is the specification's `kernelVal` at row
  `256 t + p`. The 64 blocks tile the [16384, 512] output, and the program's last line reshapes it to [8, 2048, 512].
-/
import proofs.«406470_j58420145160626_2_alg».proof.Proof.KFold
import proofs.«406470_j58420145160626_2_alg».proof.Proof.KEntry

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

variable (m : (ℓ : Loc nD τ sig) → Buf (Elt Ideal) ℓ) (ρ : Dev nD → PrngReg)

/-- The kernel's flat result [16384, 512] in the specification's terms. -/
def flatResult (c : Dev nD) : (⟨S16384x512, .f32⟩ : BufTy).Contents (Elt Ideal) :=
  Cert.MoeSpec.kernelArr (xfArr m c) (afArr m c) (m ((c : Thread nD τ).loc main_arg2)) (m ((c : Thread nD τ).loc main_arg3))
    (m ((c : Thread nD τ).loc main_arg4)) (m ((c : Thread nD τ).loc main_arg5))

/-- The printed index maps over the grid: the row-blocked windows sit at block row `t`, the parameter stacks at zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of point `t`'s block is row `256 t + p` of the array. -/
def rowOf (t : Fin cfg0.N) (p : Fin 256) : Fin 16384 :=
  ⟨t.val * 256 + p.val, by have ht : t.val < 64 := N_0 ▸ t.isLt; have hp := p.isLt; omega⟩

/-- The point's input blocks, at their literal types. -/
abbrev xblk (c : Dev nD) (t : Fin cfg0.N) : Vec Ideal S256x512 .f32 := iblk m c 0 t
abbrev mblk (c : Dev nD) (t : Fin cfg0.N) : Vec Ideal S256x8 .f32 := iblk m c 1 t
abbrev w1blk (c : Dev nD) (t : Fin cfg0.N) : Vec Ideal S8x512x2048 .bf16 := iblk m c 2 t
abbrev w2blk (c : Dev nD) (t : Fin cfg0.N) : Vec Ideal S8x2048x512 .bf16 := iblk m c 3 t
abbrev b1blk (c : Dev nD) (t : Fin cfg0.N) : Vec Ideal S8x2048 .f32 := iblk m c 4 t
abbrev b2blk (c : Dev nD) (t : Fin cfg0.N) : Vec Ideal S8x512 .f32 := iblk m c 5 t

theorem xblk_apply (c : Dev nD) (t : Fin cfg0.N) (p : Fin 256) (k : Fin 512) :
    xblk m c t (ix2 p k) = xfArr m c (ix2 (rowOf t p) k) := by
  obtain ⟨e0, e1, -⟩ := idx_facts t
  show V m c main_v0 (((cfg0.win 0).blk t).view.emb (ix2 p k)) = _
  rw [V_v0]
  refine congrArg (xfArr m c) (funext fun a => Fin.ext ?_)
  match a with
  | ⟨0, _⟩ => show win0_0.index t (0 : Fin 2) * 256 + 1 * p.val = t.val * 256 + p.val; omega
  | ⟨1, _⟩ => show win0_0.index t (1 : Fin 2) * 512 + 1 * k.val = k.val; omega

theorem mblk_apply (c : Dev nD) (t : Fin cfg0.N) (p : Fin 256) (e : Fin 8) :
    mblk m c t (ix2 p e) = (if Cert.MoeSpec.routed (afArr m c) e (rowOf t p) then 1 else 0) * Cert.MoeSpec.half := by
  obtain ⟨-, -, e0, e1, -⟩ := idx_facts t
  show V m c main_v11 (((cfg0.win 1).blk t).view.emb (ix2 p e)) = _
  rw [V_v11]
  have hi : ((cfg0.win 1).blk t).view.emb (ix2 p e) = ix2 (rowOf t p) e := funext fun a => Fin.ext (by
    match a with
    | ⟨0, _⟩ => show win0_1.index t (0 : Fin 2) * 256 + 1 * p.val = t.val * 256 + p.val; omega
    | ⟨1, _⟩ => show win0_1.index t (1 : Fin 2) * 8 + 1 * e.val = e.val; omega)
  rw [hi]
  exact mask_apply (afArr m c) (rowOf t p) e

theorem w1blk_apply (c : Dev nD) (t : Fin cfg0.N) (e : Fin 8) (k : Fin 512) (h : Fin 2048) :
    w1blk m c t (ix3 e k h) = m ((c : Thread nD τ).loc main_arg2) (ix3 e k h) := by
  obtain ⟨-, -, -, -, -, -, e0, e1, e2, -⟩ := idx_facts t
  show V m c main_v12 (((cfg0.win 2).blk t).view.emb (ix3 e k h)) = _
  rw [V_v12]
  show m ((c : Thread nD τ).loc main_arg2) (((cfg0.win 2).blk t).view.emb (ix3 e k h)) = _
  refine congrArg (m ((c : Thread nD τ).loc main_arg2)) (funext fun a => Fin.ext ?_)
  match a with
  | ⟨0, _⟩ => show win0_2.index t (0 : Fin 3) * 8 + 1 * e.val = e.val; omega
  | ⟨1, _⟩ => show win0_2.index t (1 : Fin 3) * 512 + 1 * k.val = k.val; omega
  | ⟨2, _⟩ => show win0_2.index t (2 : Fin 3) * 2048 + 1 * h.val = h.val; omega

theorem w2blk_apply (c : Dev nD) (t : Fin cfg0.N) (e : Fin 8) (h : Fin 2048) (d : Fin 512) :
    w2blk m c t (ix3 e h d) = m ((c : Thread nD τ).loc main_arg4) (ix3 e h d) := by
  obtain ⟨-, -, -, -, -, -, -, -, -, e0, e1, e2, -⟩ := idx_facts t
  show V m c main_v13 (((cfg0.win 3).blk t).view.emb (ix3 e h d)) = _
  rw [V_v13]
  show m ((c : Thread nD τ).loc main_arg4) (((cfg0.win 3).blk t).view.emb (ix3 e h d)) = _
  refine congrArg (m ((c : Thread nD τ).loc main_arg4)) (funext fun a => Fin.ext ?_)
  match a with
  | ⟨0, _⟩ => show win0_3.index t (0 : Fin 3) * 8 + 1 * e.val = e.val; omega
  | ⟨1, _⟩ => show win0_3.index t (1 : Fin 3) * 2048 + 1 * h.val = h.val; omega
  | ⟨2, _⟩ => show win0_3.index t (2 : Fin 3) * 512 + 1 * d.val = d.val; omega

theorem b1blk_apply (c : Dev nD) (t : Fin cfg0.N) (e : Fin 8) (h : Fin 2048) :
    b1blk m c t (ix2 e h) = m ((c : Thread nD τ).loc main_arg3) (ix2 e h) := by
  obtain ⟨-, -, -, -, -, -, -, -, -, -, -, -, e0, e1, -⟩ := idx_facts t
  show V m c main_arg3 (((cfg0.win 4).blk t).view.emb (ix2 e h)) = _
  rw [V_main_arg3]
  refine congrArg (m ((c : Thread nD τ).loc main_arg3)) (funext fun a => Fin.ext ?_)
  match a with
  | ⟨0, _⟩ => show win0_4.index t (0 : Fin 2) * 8 + 1 * e.val = e.val; omega
  | ⟨1, _⟩ => show win0_4.index t (1 : Fin 2) * 2048 + 1 * h.val = h.val; omega

theorem b2blk_apply (c : Dev nD) (t : Fin cfg0.N) (e : Fin 8) (d : Fin 512) :
    b2blk m c t (ix2 e d) = m ((c : Thread nD τ).loc main_arg5) (ix2 e d) := by
  obtain ⟨-, -, -, -, -, -, -, -, -, -, -, -, -, -, e0, e1⟩ := idx_facts t
  show V m c main_arg5 (((cfg0.win 5).blk t).view.emb (ix2 e d)) = _
  rw [V_main_arg5]
  refine congrArg (m ((c : Thread nD τ).loc main_arg5)) (funext fun a => Fin.ext ?_)
  match a with
  | ⟨0, _⟩ => show win0_5.index t (0 : Fin 2) * 8 + 1 * e.val = e.val; omega
  | ⟨1, _⟩ => show win0_5.index t (1 : Fin 2) * 512 + 1 * d.val = d.val; omega

/-- What the body leaves at point `t`: the loop's eighth carried value over the point's blocks. -/
theorem outs_eq (c : Dev nD) (t : Fin cfg0.N) :
    outsAt0 m c t = carried (xblk m c t) (mblk m c t) (w1blk m c t) (w2blk m c t) (b1blk m c t) (b2blk m c t) 8 := by
  unfold outsAt0
  exact out_eq_carried c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-- One expert's weighted output over the point's blocks is the specification's term at row `256 t + p`. -/
theorem blockTerm_eq (c : Dev nD) (t : Fin cfg0.N) (p : Fin 256) (d : Fin 512) (e : Fin 8) :
    blockTerm (xblk m c t) (mblk m c t) (w1blk m c t) (w2blk m c t) (b1blk m c t) (b2blk m c t) p d e
      = Cert.MoeSpec.expertOut (xfArr m c) (m ((c : Thread nD τ).loc main_arg2)) (m ((c : Thread nD τ).loc main_arg3))
          (m ((c : Thread nD τ).loc main_arg4)) (m ((c : Thread nD τ).loc main_arg5)) e (rowOf t p) d
        * ((if Cert.MoeSpec.routed (afArr m c) e (rowOf t p) then 1 else 0) * Cert.MoeSpec.half) := by
  unfold blockTerm Cert.MoeSpec.expertOut Cert.MoeSpec.hidden
  simp only [xblk_apply, mblk_apply, w1blk_apply, w2blk_apply, b1blk_apply, b2blk_apply]

/-- WHAT POINT `t` WRITES BACK is block `t` of the flat result. -/
theorem flushed_eq (c : Dev nD) (t : Fin cfg0.N) :
    (dats m 0 c).flushed 6 t = ((cfg0.win 6).blk t).view.read (Elt Ideal) (flatResult m c) := by
  obtain ⟨-, -, -, -, e0, e1, -⟩ := idx_facts t
  show (cfg0.win 6).cut (grid0.coords t) ((dats m 0 c).after 6 t) = _
  rw [after0_6, outs_eq]
  funext y
  obtain ⟨p, d, rfl⟩ : ∃ (p : Fin 256) (d : Fin 512), y = ix2 p d := ⟨y 0, y 1, eq_ix2 y⟩
  show carried (xblk m c t) (mblk m c t) (w1blk m c t) (w2blk m c t) (b1blk m c t) (b2blk m c t) 8 (ix2 p d)
      = flatResult m c (((cfg0.win 6).blk t).view.emb (ix2 p d))
  have hi : ((cfg0.win 6).blk t).view.emb (ix2 p d) = ix2 (rowOf t p) d := funext fun a => Fin.ext (by
    match a with
    | ⟨0, _⟩ => show win0_6.index t (0 : Fin 2) * 256 + 1 * p.val = t.val * 256 + p.val; omega
    | ⟨1, _⟩ => show win0_6.index t (1 : Fin 2) * 512 + 1 * d.val = d.val; omega)
  rw [hi, carried_apply]
  unfold flatResult
  rw [Cert.MoeSpec.kernelArr_apply]
  unfold Cert.MoeSpec.kernelVal
  exact congrArg (fun f => Cert.MoeSpec.accum f 8) (funext fun e => blockTerm_eq m c t p d e)

/-- An index of the array is in point `t`'s block iff each coordinate is in the block's range on its axis. -/
theorem mem_blk (t : Fin cfg0.N) (i : S16384x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v14).slice (win0_6.rect t)).set ↔ _
  rw [View.set_slice_whole, Rect.mem_set_unit]
  exact Iff.rfl

/-- The 64 row blocks cover the array: row `r` is in block `r / 256`. -/
theorem cover (i : S16384x512.Idx) : ∃ t : Fin cfg0.N, (cfg0.win 6).flush t = true ∧ i ∈ ((cfg0.win 6).blk t).view.set := by
  have h0 : (i 0).val < 16384 := (i 0).isLt
  have h1 : (i 1).val < 512 := (i 1).isLt
  let t : Fin cfg0.N := ⟨(i 0).val / 256, by rw [show cfg0.N = 64 from N_0]; omega⟩
  obtain ⟨-, -, -, -, e0, e1, -⟩ := idx_facts t
  have ht : t.val = (i 0).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- THE OUTPUT ARRAY after the region is the flat result. -/
theorem final (c : Dev nD) : (dats m 0 c).arrAt 6 cfg0.N = flatResult m c :=
  (dats m 0 c).arrAt_eq_of_cover 6 (flatResult m c) (fun t _ => flushed_eq m c t) cover

/-- The program's result buffer after its last line: the flat result reshaped to [8, 2048, 512]. -/
theorem tail_eq (c : Dev nD) :
    Pipeline.afterTail₀ cfgs (dats m) 0 (V0 m) [hostOps1] c main_v15
      = shapeCast S8x2048x512 (flatResult m c) shapeCasts_S16384x512_S8x2048x512 := by
  unfold Pipeline.afterTail₀
  show StableHlo.after hostOps1 _ (Proc.devRef .tc main_v15) = _
  after_results
  refine congrArg (fun X => shapeCast S8x2048x512 X shapeCasts_S16384x512_S8x2048x512) ?_
  exact (Pipeline.withArrays_arr spec0 launch0.win.arr_inj c _ _ 6).trans (final m c)

/-- THE RUN: every weakly fair execution of the program ends with its result at the specification's kernel value of
    the arguments, reshaped, and the arguments unchanged. -/
theorem run : θ_run defs (onTc (τ := τ) (main (F := Ideal))) ⟨m, fun _ => 0, ρ⟩ fun r => ∀ c : Dev nD,
      r.2.mem ((c.tc : Thread nD τ).loc main_v15) = shapeCast S8x2048x512 (flatResult m c) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v15 (Pipeline.mem_restRefs_of main_v15 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans ((((dats m) 0 c).arrAt_in 4 rfl _).trans ((A_eq m c 4).trans (V_main_arg3 m c))),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c)))⟩)
    (run_main m ρ)

end Cert.KernelIdeal.Moe

end
-- ==== Proof.RefTerm.lean ====
/-
  The reference program's result as one term of its six argument arrays: the flattened activations meet each of the
  eight experts' parameter slices in the same two-layer perceptron (`expertTerm`), the routed tokens' outputs are
  added expert after expert from zero, and the total is divided by two and reshaped to [8, 2048, 512].
-/
import proofs.«406470_j58420145160626_2_alg».proof.Proof.Gen.ReferenceIdeal

noncomputable section

namespace Cert.ReferenceIdeal.RefTerm

open Cert.ReferenceIdeal Cert.ReferenceIdeal.Gen Idealize.ShloMosaic Idealize.ShloMosaic.TcCoe Idealize.SL.Sem Idealize.ShloMosaic.StableHlo

variable {F : FTy → Type} [FloatOps F]

/-- One expert's contribution over all tokens: where a token's assignment row holds the expert's id `eid`, the
    perceptron `max (xf · w1 + b1) 0 · w2 + b2` of the token's activations; zero elsewhere. The parameter slices
    keep their leading axis of extent one, as the program slices them. -/
def expertTerm (af : (⟨S16384x2, .i32⟩ : BufTy).Contents (Elt F)) (xf : (⟨S16384x512, .f32⟩ : BufTy).Contents (Elt F)) (eid : (⟨S_, .i32⟩ : BufTy).Contents (Elt F))
    (w1 : (⟨S1x512x2048, .f32⟩ : BufTy).Contents (Elt F)) (b1 : (⟨S1x2048, .f32⟩ : BufTy).Contents (Elt F))
    (w2 : (⟨S1x2048x512, .f32⟩ : BufTy).Contents (Elt F)) (b2 : (⟨S1x512, .f32⟩ : BufTy).Contents (Elt F)) : (⟨S16384x512, .f32⟩ : BufTy).Contents (Elt F) :=
  select (broadcastInDim S16384x512 ![0, 1] bcast_S16384x1_S16384x512_0_1 (broadcastInDim S16384x1 ![0] bcast_S16384_S16384x1_0 (Host.reduce IntOp.ori (cmpi .eq af (broadcastInDim S16384x2 ![] bcast_S_S16384x2 eid)) (constantI S_ 1 0#1) reducesTo_S16384x2_S16384_d1 h_S_))) (addf (Host.dotGeneral dot_S16384x2048_S2048x512_S16384x512_1_0_0_1_n_n none (maximumf (addf (Host.dotGeneral dot_S16384x512_S512x2048_S16384x2048_1_0_0_1_n_n none xf (shapeCast S512x2048 w1 shapeCasts_S1x512x2048_S512x2048)) (broadcastInDim S16384x2048 ![0, 1] bcast_S1x2048_S16384x2048_0_1 (broadcastInDim S1x2048 ![1] bcast_S2048_S1x2048_1 (shapeCast S2048 b1 shapeCasts_S1x2048_S2048)))) (broadcastInDim S16384x2048 ![] bcast_S_S16384x2048 (constant S_ .f32 0x00000000#32))) (shapeCast S2048x512 w2 shapeCasts_S1x2048x512_S2048x512)) (broadcastInDim S16384x512 ![0, 1] bcast_S1x512_S16384x512_0_1 (broadcastInDim S1x512 ![1] bcast_S512_S1x512_1 (shapeCast S512 b2 shapeCasts_S1x512_S512)))) (broadcastInDim S16384x512 ![] bcast_S_S16384x512 (constant S_ .f32 0x00000000#32))

/-- The reference's result array as a function of its six arguments. -/
def refOut (x0 : (⟨S8x2048x512, .f32⟩ : BufTy).Contents (Elt F)) (x1 : (⟨S8x2048x2, .i32⟩ : BufTy).Contents (Elt F)) (x2 : (⟨S8x512x2048, .f32⟩ : BufTy).Contents (Elt F))
    (x3 : (⟨S8x2048, .f32⟩ : BufTy).Contents (Elt F)) (x4 : (⟨S8x2048x512, .f32⟩ : BufTy).Contents (Elt F)) (x5 : (⟨S8x512, .f32⟩ : BufTy).Contents (Elt F)) : (⟨S8x2048x512, .f32⟩ : BufTy).Contents (Elt F) :=
  shapeCast S8x2048x512 (Host.divf
      (addf (addf (addf (addf (addf (addf (addf (addf (broadcastInDim S16384x512 ![] bcast_S_S16384x512 (constant S_ .f32 0x00000000#32))
      (expertTerm (shapeCast S16384x2 x1 shapeCasts_S8x2048x2_S16384x2) (shapeCast S16384x512 x0 shapeCasts_S8x2048x512_S16384x512) (constantI S_ 32 0#32) (extractStridedSlice S1x512x2048 ![0, 0, 0] x2 slices_S8x512x2048_S1x512x2048_0_0_0) (extractStridedSlice S1x2048 ![0, 0] x3 slices_S8x2048_S1x2048_0_0) (extractStridedSlice S1x2048x512 ![0, 0, 0] x4 slices_S8x2048x512_S1x2048x512_0_0_0) (extractStridedSlice S1x512 ![0, 0] x5 slices_S8x512_S1x512_0_0)))
      (expertTerm (shapeCast S16384x2 x1 shapeCasts_S8x2048x2_S16384x2) (shapeCast S16384x512 x0 shapeCasts_S8x2048x512_S16384x512) (constantI S_ 32 1#32) (extractStridedSlice S1x512x2048 ![1, 0, 0] x2 slices_S8x512x2048_S1x512x2048_1_0_0) (extractStridedSlice S1x2048 ![1, 0] x3 slices_S8x2048_S1x2048_1_0) (extractStridedSlice S1x2048x512 ![1, 0, 0] x4 slices_S8x2048x512_S1x2048x512_1_0_0) (extractStridedSlice S1x512 ![1, 0] x5 slices_S8x512_S1x512_1_0)))
      (expertTerm (shapeCast S16384x2 x1 shapeCasts_S8x2048x2_S16384x2) (shapeCast S16384x512 x0 shapeCasts_S8x2048x512_S16384x512) (constantI S_ 32 2#32) (extractStridedSlice S1x512x2048 ![2, 0, 0] x2 slices_S8x512x2048_S1x512x2048_2_0_0) (extractStridedSlice S1x2048 ![2, 0] x3 slices_S8x2048_S1x2048_2_0) (extractStridedSlice S1x2048x512 ![2, 0, 0] x4 slices_S8x2048x512_S1x2048x512_2_0_0) (extractStridedSlice S1x512 ![2, 0] x5 slices_S8x512_S1x512_2_0)))
      (expertTerm (shapeCast S16384x2 x1 shapeCasts_S8x2048x2_S16384x2) (shapeCast S16384x512 x0 shapeCasts_S8x2048x512_S16384x512) (constantI S_ 32 3#32) (extractStridedSlice S1x512x2048 ![3, 0, 0] x2 slices_S8x512x2048_S1x512x2048_3_0_0) (extractStridedSlice S1x2048 ![3, 0] x3 slices_S8x2048_S1x2048_3_0) (extractStridedSlice S1x2048x512 ![3, 0, 0] x4 slices_S8x2048x512_S1x2048x512_3_0_0) (extractStridedSlice S1x512 ![3, 0] x5 slices_S8x512_S1x512_3_0)))
      (expertTerm (shapeCast S16384x2 x1 shapeCasts_S8x2048x2_S16384x2) (shapeCast S16384x512 x0 shapeCasts_S8x2048x512_S16384x512) (constantI S_ 32 4#32) (extractStridedSlice S1x512x2048 ![4, 0, 0] x2 slices_S8x512x2048_S1x512x2048_4_0_0) (extractStridedSlice S1x2048 ![4, 0] x3 slices_S8x2048_S1x2048_4_0) (extractStridedSlice S1x2048x512 ![4, 0, 0] x4 slices_S8x2048x512_S1x2048x512_4_0_0) (extractStridedSlice S1x512 ![4, 0] x5 slices_S8x512_S1x512_4_0)))
      (expertTerm (shapeCast S16384x2 x1 shapeCasts_S8x2048x2_S16384x2) (shapeCast S16384x512 x0 shapeCasts_S8x2048x512_S16384x512) (constantI S_ 32 5#32) (extractStridedSlice S1x512x2048 ![5, 0, 0] x2 slices_S8x512x2048_S1x512x2048_5_0_0) (extractStridedSlice S1x2048 ![5, 0] x3 slices_S8x2048_S1x2048_5_0) (extractStridedSlice S1x2048x512 ![5, 0, 0] x4 slices_S8x2048x512_S1x2048x512_5_0_0) (extractStridedSlice S1x512 ![5, 0] x5 slices_S8x512_S1x512_5_0)))
      (expertTerm (shapeCast S16384x2 x1 shapeCasts_S8x2048x2_S16384x2) (shapeCast S16384x512 x0 shapeCasts_S8x2048x512_S16384x512) (constantI S_ 32 6#32) (extractStridedSlice S1x512x2048 ![6, 0, 0] x2 slices_S8x512x2048_S1x512x2048_6_0_0) (extractStridedSlice S1x2048 ![6, 0] x3 slices_S8x2048_S1x2048_6_0) (extractStridedSlice S1x2048x512 ![6, 0, 0] x4 slices_S8x2048x512_S1x2048x512_6_0_0) (extractStridedSlice S1x512 ![6, 0] x5 slices_S8x512_S1x512_6_0)))
      (expertTerm (shapeCast S16384x2 x1 shapeCasts_S8x2048x2_S16384x2) (shapeCast S16384x512 x0 shapeCasts_S8x2048x512_S16384x512) (constantI S_ 32 7#32) (extractStridedSlice S1x512x2048 ![7, 0, 0] x2 slices_S8x512x2048_S1x512x2048_7_0_0) (extractStridedSlice S1x2048 ![7, 0] x3 slices_S8x2048_S1x2048_7_0) (extractStridedSlice S1x2048x512 ![7, 0, 0] x4 slices_S8x2048x512_S1x2048x512_7_0_0) (extractStridedSlice S1x512 ![7, 0] x5 slices_S8x512_S1x512_7_0)))
      (broadcastInDim S16384x512 ![] bcast_S_S16384x512 (constant S_ .f32 0x40000000#32))) shapeCasts_S16384x512_S8x2048x512

end Cert.ReferenceIdeal.RefTerm

end
-- ==== Proof.RefRunBase.lean ====
/-
  The reference program's run, read stretch by stretch: what every stretch of its operation list needs of the
  stretches before it. An expert's block reads the flattened activations and assignments, the four parameter
  arrays and the running total, and writes none of the first six; `Live` names those six values, so that a
  block's effect is one equation on the running total.
-/
import proofs.«406470_j58420145160626_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The six values an expert's block reads and no block writes, at a valuation: the flattened activations
    `xf` and assignments `af`, and the four parameter arrays. -/
structure Live (V : Valuation τ sig (Elt F)) (xf : (⟨S16384x512, .f32⟩ : BufTy).Contents (Elt F)) (af : (⟨S16384x2, .i32⟩ : BufTy).Contents (Elt F))
    (x2 : (⟨S8x512x2048, .f32⟩ : BufTy).Contents (Elt F)) (x3 : (⟨S8x2048, .f32⟩ : BufTy).Contents (Elt F)) (x4 : (⟨S8x2048x512, .f32⟩ : BufTy).Contents (Elt F)) (x5 : (⟨S8x512, .f32⟩ : BufTy).Contents (Elt F)) : Prop where
  hxf : V (Proc.devRef .tc main_v0) = xf
  haf : V (Proc.devRef .tc main_v1) = af
  h2 : V (Proc.devRef .tc main_arg2) = x2
  h3 : V (Proc.devRef .tc main_arg3) = x3
  h4 : V (Proc.devRef .tc main_arg4) = x4
  h5 : V (Proc.devRef .tc main_arg5) = x5

end Cert.ReferenceIdeal.RefRun

end
-- ==== Proof.RefRunValA.lean ====
/-
  What the opening stretch and the blocks of experts 0, 1 and 2 do to the values later stretches read: each
  block leaves the six `Live` values and the argument arrays, and adds its expert's term to the running total.
-/
import proofs.«406470_j58420145160626_2_alg».proof.Proof.RefRunBase
import proofs.«406470_j58420145160626_2_alg».proof.Proof.RefRunOps0
import proofs.«406470_j58420145160626_2_alg».proof.Proof.RefRunOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable {xf : (⟨S16384x512, .f32⟩ : BufTy).Contents (Elt F)} {af : (⟨S16384x2, .i32⟩ : BufTy).Contents (Elt F)} {a : (⟨S16384x512, .f32⟩ : BufTy).Contents (Elt F)}
variable {x2 : (⟨S8x512x2048, .f32⟩ : BufTy).Contents (Elt F)} {x3 : (⟨S8x2048, .f32⟩ : BufTy).Contents (Elt F)} {x4 : (⟨S8x2048x512, .f32⟩ : BufTy).Contents (Elt F)} {x5 : (⟨S8x512, .f32⟩ : BufTy).Contents (Elt F)}

/-- The stretch writes none of these buffers. -/
theorem keep_Pre (V : Valuation τ sig (Elt F)) :
    after opsPre V (Proc.devRef .tc main_arg0) = V (Proc.devRef .tc main_arg0)
    ∧ after opsPre V (Proc.devRef .tc main_arg1) = V (Proc.devRef .tc main_arg1)
    ∧ after opsPre V (Proc.devRef .tc main_arg2) = V (Proc.devRef .tc main_arg2)
    ∧ after opsPre V (Proc.devRef .tc main_arg3) = V (Proc.devRef .tc main_arg3)
    ∧ after opsPre V (Proc.devRef .tc main_arg4) = V (Proc.devRef .tc main_arg4)
    ∧ after opsPre V (Proc.devRef .tc main_arg5) = V (Proc.devRef .tc main_arg5) := by
  refine ⟨?_, ?_, ?_, ?_, ?_, ?_⟩ <;> after_results_simp

/-- The opening stretch flattens the activations and the assignments and leaves the parameter arrays. -/
theorem live_Pre (V : Valuation τ sig (Elt F)) :
    Live (after opsPre V) (shapeCast S16384x512 (V (Proc.devRef .tc main_arg0)) shapeCasts_S8x2048x512_S16384x512) (shapeCast S16384x2 (V (Proc.devRef .tc main_arg1)) shapeCasts_S8x2048x2_S16384x2)
      (V (Proc.devRef .tc main_arg2)) (V (Proc.devRef .tc main_arg3)) (V (Proc.devRef .tc main_arg4)) (V (Proc.devRef .tc main_arg5)) :=
  have k := keep_Pre V
  ⟨by after_results_simp <;> (try simp only [TRef.ofBuf, TRef.toBuf, cast_eq]) <;> rfl, by after_results_simp <;> (try simp only [TRef.ofBuf, TRef.toBuf, cast_eq]) <;> rfl, k.2.2.1, k.2.2.2.1, k.2.2.2.2.1, k.2.2.2.2.2⟩

/-- The running total starts at zero. -/
theorem acc_Pre (V : Valuation τ sig (Elt F)) :
    after opsPre V (Proc.devRef .tc main_v2) = broadcastInDim S16384x512 ![] bcast_S_S16384x512 (constant S_ .f32 0x00000000#32) := by
  after_results_simp <;> (try simp only [TRef.ofBuf, TRef.toBuf, cast_eq]) <;> rfl

/-- The stretch writes none of these buffers. -/
theorem keep_E0 (V : Valuation τ sig (Elt F)) :
    after opsE0 V (Proc.devRef .tc main_arg0) = V (Proc.devRef .tc main_arg0)
    ∧ after opsE0 V (Proc.devRef .tc main_arg1) = V (Proc.devRef .tc main_arg1)
    ∧ after opsE0 V (Proc.devRef .tc main_arg2) = V (Proc.devRef .tc main_arg2)
    ∧ after opsE0 V (Proc.devRef .tc main_arg3) = V (Proc.devRef .tc main_arg3)
    ∧ after opsE0 V (Proc.devRef .tc main_arg4) = V (Proc.devRef .tc main_arg4)
    ∧ after opsE0 V (Proc.devRef .tc main_arg5) = V (Proc.devRef .tc main_arg5)
    ∧ after opsE0 V (Proc.devRef .tc main_v0) = V (Proc.devRef .tc main_v0)
    ∧ after opsE0 V (Proc.devRef .tc main_v1) = V (Proc.devRef .tc main_v1) := by
  refine ⟨?_, ?_, ?_, ?_, ?_, ?_, ?_, ?_⟩ <;> after_results_simp

theorem live_E0 {V : Valuation τ sig (Elt F)}
    (L : Live V xf af x2 x3 x4 x5) : Live (after opsE0 V) xf af x2 x3 x4 x5 :=
  have k := keep_E0 V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 0's block adds its term to the running total. -/
theorem acc_E0 {V : Valuation τ sig (Elt F)}
    (L : Live V xf af x2 x3 x4 x5) (ha : V (Proc.devRef .tc main_v2) = a) :
    (after opsE0 V) (Proc.devRef .tc main_v25)
      = addf a (RefTerm.expertTerm af xf (constantI S_ 32 0#32) (extractStridedSlice S1x512x2048 ![0, 0, 0] x2 slices_S8x512x2048_S1x512x2048_0_0_0) (extractStridedSlice S1x2048 ![0, 0] x3 slices_S8x2048_S1x2048_0_0) (extractStridedSlice S1x2048x512 ![0, 0, 0] x4 slices_S8x2048x512_S1x2048x512_0_0_0) (extractStridedSlice S1x512 ![0, 0] x5 slices_S8x512_S1x512_0_0)) := by
  obtain ⟨h0, h1, h2, h3, h4, h5⟩ := L
  subst h0 h1 h2 h3 h4 h5 ha
  after_results_simp <;> (try simp only [TRef.ofBuf, TRef.toBuf, cast_eq]) <;> rfl

/-- The stretch writes none of these buffers. -/
theorem keep_E1 (V : Valuation τ sig (Elt F)) :
    after opsE1 V (Proc.devRef .tc main_arg0) = V (Proc.devRef .tc main_arg0)
    ∧ after opsE1 V (Proc.devRef .tc main_arg1) = V (Proc.devRef .tc main_arg1)
    ∧ after opsE1 V (Proc.devRef .tc main_arg2) = V (Proc.devRef .tc main_arg2)
    ∧ after opsE1 V (Proc.devRef .tc main_arg3) = V (Proc.devRef .tc main_arg3)
    ∧ after opsE1 V (Proc.devRef .tc main_arg4) = V (Proc.devRef .tc main_arg4)
    ∧ after opsE1 V (Proc.devRef .tc main_arg5) = V (Proc.devRef .tc main_arg5)
    ∧ after opsE1 V (Proc.devRef .tc main_v0) = V (Proc.devRef .tc main_v0)
    ∧ after opsE1 V (Proc.devRef .tc main_v1) = V (Proc.devRef .tc main_v1) := by
  refine ⟨?_, ?_, ?_, ?_, ?_, ?_, ?_, ?_⟩ <;> after_results_simp

theorem live_E1 {V : Valuation τ sig (Elt F)}
    (L : Live V xf af x2 x3 x4 x5) : Live (after opsE1 V) xf af x2 x3 x4 x5 :=
  have k := keep_E1 V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 1's block adds its term to the running total. -/
theorem acc_E1 {V : Valuation τ sig (Elt F)}
    (L : Live V xf af x2 x3 x4 x5) (ha : V (Proc.devRef .tc main_v25) = a) :
    (after opsE1 V) (Proc.devRef .tc main_v48)
      = addf a (RefTerm.expertTerm af xf (constantI S_ 32 1#32) (extractStridedSlice S1x512x2048 ![1, 0, 0] x2 slices_S8x512x2048_S1x512x2048_1_0_0) (extractStridedSlice S1x2048 ![1, 0] x3 slices_S8x2048_S1x2048_1_0) (extractStridedSlice S1x2048x512 ![1, 0, 0] x4 slices_S8x2048x512_S1x2048x512_1_0_0) (extractStridedSlice S1x512 ![1, 0] x5 slices_S8x512_S1x512_1_0)) := by
  obtain ⟨h0, h1, h2, h3, h4, h5⟩ := L
  subst h0 h1 h2 h3 h4 h5 ha
  after_results_simp <;> (try simp only [TRef.ofBuf, TRef.toBuf, cast_eq]) <;> rfl

/-- The stretch writes none of these buffers. -/
theorem keep_E2a (V : Valuation τ sig (Elt F)) :
    after opsE2a V (Proc.devRef .tc main_arg0) = V (Proc.devRef .tc main_arg0)
    ∧ after opsE2a V (Proc.devRef .tc main_arg1) = V (Proc.devRef .tc main_arg1)
    ∧ after opsE2a V (Proc.devRef .tc main_arg2) = V (Proc.devRef .tc main_arg2)
    ∧ after opsE2a V (Proc.devRef .tc main_arg3) = V (Proc.devRef .tc main_arg3)
    ∧ after opsE2a V (Proc.devRef .tc main_arg4) = V (Proc.devRef .tc main_arg4)
    ∧ after opsE2a V (Proc.devRef .tc main_arg5) = V (Proc.devRef .tc main_arg5)
    ∧ after opsE2a V (Proc.devRef .tc main_v0) = V (Proc.devRef .tc main_v0)
    ∧ after opsE2a V (Proc.devRef .tc main_v1) = V (Proc.devRef .tc main_v1) := by
  refine ⟨?_, ?_, ?_, ?_, ?_, ?_, ?_, ?_⟩ <;> after_results_simp

theorem live_E2a {V : Valuation τ sig (Elt F)}
    (L : Live V xf af x2 x3 x4 x5) : Live (after opsE2a V) xf af x2 x3 x4 x5 :=
  have k := keep_E2a V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- The stretch writes none of these buffers. -/
theorem keep_E2b (V : Valuation τ sig (Elt F)) :
    after opsE2b V (Proc.devRef .tc main_arg0) = V (Proc.devRef .tc main_arg0)
    ∧ after opsE2b V (Proc.devRef .tc main_arg1) = V (Proc.devRef .tc main_arg1)
    ∧ after opsE2b V (Proc.devRef .tc main_arg2) = V (Proc.devRef .tc main_arg2)
    ∧ after opsE2b V (Proc.devRef .tc main_arg3) = V (Proc.devRef .tc main_arg3)
    ∧ after opsE2b V (Proc.devRef .tc main_arg4) = V (Proc.devRef .tc main_arg4)
    ∧ after opsE2b V (Proc.devRef .tc main_arg5) = V (Proc.devRef .tc main_arg5)
    ∧ after opsE2b V (Proc.devRef .tc main_v0) = V (Proc.devRef .tc main_v0)
    ∧ after opsE2b V (Proc.devRef .tc main_v1) = V (Proc.devRef .tc main_v1) := by
  refine ⟨?_, ?_, ?_, ?_, ?_, ?_, ?_, ?_⟩ <;> after_results_simp

theorem live_E2b {V : Valuation τ sig (Elt F)}
    (L : Live V xf af x2 x3 x4 x5) : Live (after opsE2b V) xf af x2 x3 x4 x5 :=
  have k := keep_E2b V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 2's block adds its term to the running total. -/
theorem acc_E2 {V : Valuation τ sig (Elt F)}
    (L : Live V xf af x2 x3 x4 x5) (ha : V (Proc.devRef .tc main_v48) = a) :
    (after opsE2b (after opsE2a V)) (Proc.devRef .tc main_v71)
      = addf a (RefTerm.expertTerm af xf (constantI S_ 32 2#32) (extractStridedSlice S1x512x2048 ![2, 0, 0] x2 slices_S8x512x2048_S1x512x2048_2_0_0) (extractStridedSlice S1x2048 ![2, 0] x3 slices_S8x2048_S1x2048_2_0) (extractStridedSlice S1x2048x512 ![2, 0, 0] x4 slices_S8x2048x512_S1x2048x512_2_0_0) (extractStridedSlice S1x512 ![2, 0] x5 slices_S8x512_S1x512_2_0)) := by
  obtain ⟨h0, h1, h2, h3, h4, h5⟩ := L
  subst h0 h1 h2 h3 h4 h5 ha
  after_results_simp <;> (try simp only [TRef.ofBuf, TRef.toBuf, cast_eq]) <;> rfl

end Cert.ReferenceIdeal.RefRun

end
-- ==== Proof.RefRunValB.lean ====
/-
  What the blocks of experts 3 and 4 do to the values later stretches read: each block leaves the six `Live`
  values and the argument arrays, and adds its expert's term to the running total.
-/
import proofs.«406470_j58420145160626_2_alg».proof.Proof.RefRunValA
import proofs.«406470_j58420145160626_2_alg».proof.Proof.RefRunOps1
import proofs.«406470_j58420145160626_2_alg».proof.Proof.RefRunOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable {xf : (⟨S16384x512, .f32⟩ : BufTy).Contents (Elt F)} {af : (⟨S16384x2, .i32⟩ : BufTy).Contents (Elt F)} {a : (⟨S16384x512, .f32⟩ : BufTy).Contents (Elt F)}
variable {x2 : (⟨S8x512x2048, .f32⟩ : BufTy).Contents (Elt F)} {x3 : (⟨S8x2048, .f32⟩ : BufTy).Contents (Elt F)} {x4 : (⟨S8x2048x512, .f32⟩ : BufTy).Contents (Elt F)} {x5 : (⟨S8x512, .f32⟩ : BufTy).Contents (Elt F)}

/-- The stretch writes none of these buffers. -/
theorem keep_E3 (V : Valuation τ sig (Elt F)) :
    after opsE3 V (Proc.devRef .tc main_arg0) = V (Proc.devRef .tc main_arg0)
    ∧ after opsE3 V (Proc.devRef .tc main_arg1) = V (Proc.devRef .tc main_arg1)
    ∧ after opsE3 V (Proc.devRef .tc main_arg2) = V (Proc.devRef .tc main_arg2)
    ∧ after opsE3 V (Proc.devRef .tc main_arg3) = V (Proc.devRef .tc main_arg3)
    ∧ after opsE3 V (Proc.devRef .tc main_arg4) = V (Proc.devRef .tc main_arg4)
    ∧ after opsE3 V (Proc.devRef .tc main_arg5) = V (Proc.devRef .tc main_arg5)
    ∧ after opsE3 V (Proc.devRef .tc main_v0) = V (Proc.devRef .tc main_v0)
    ∧ after opsE3 V (Proc.devRef .tc main_v1) = V (Proc.devRef .tc main_v1) := by
  refine ⟨?_, ?_, ?_, ?_, ?_, ?_, ?_, ?_⟩ <;> after_results_simp

theorem live_E3 {V : Valuation τ sig (Elt F)}
    (L : Live V xf af x2 x3 x4 x5) : Live (after opsE3 V) xf af x2 x3 x4 x5 :=
  have k := keep_E3 V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 3's block adds its term to the running total. -/
theorem acc_E3 {V : Valuation τ sig (Elt F)}
    (L : Live V xf af x2 x3 x4 x5) (ha : V (Proc.devRef .tc main_v71) = a) :
    (after opsE3 V) (Proc.devRef .tc main_v94)
      = addf a (RefTerm.expertTerm af xf (constantI S_ 32 3#32) (extractStridedSlice S1x512x2048 ![3, 0, 0] x2 slices_S8x512x2048_S1x512x2048_3_0_0) (extractStridedSlice S1x2048 ![3, 0] x3 slices_S8x2048_S1x2048_3_0) (extractStridedSlice S1x2048x512 ![3, 0, 0] x4 slices_S8x2048x512_S1x2048x512_3_0_0) (extractStridedSlice S1x512 ![3, 0] x5 slices_S8x512_S1x512_3_0)) := by
  obtain ⟨h0, h1, h2, h3, h4, h5⟩ := L
  subst h0 h1 h2 h3 h4 h5 ha
  after_results_simp <;> (try simp only [TRef.ofBuf, TRef.toBuf, cast_eq]) <;> rfl

/-- The stretch writes none of these buffers. -/
theorem keep_E4a (V : Valuation τ sig (Elt F)) :
    after opsE4a V (Proc.devRef .tc main_arg0) = V (Proc.devRef .tc main_arg0)
    ∧ after opsE4a V (Proc.devRef .tc main_arg1) = V (Proc.devRef .tc main_arg1)
    ∧ after opsE4a V (Proc.devRef .tc main_arg2) = V (Proc.devRef .tc main_arg2)
    ∧ after opsE4a V (Proc.devRef .tc main_arg3) = V (Proc.devRef .tc main_arg3)
    ∧ after opsE4a V (Proc.devRef .tc main_arg4) = V (Proc.devRef .tc main_arg4)
    ∧ after opsE4a V (Proc.devRef .tc main_arg5) = V (Proc.devRef .tc main_arg5)
    ∧ after opsE4a V (Proc.devRef .tc main_v0) = V (Proc.devRef .tc main_v0)
    ∧ after opsE4a V (Proc.devRef .tc main_v1) = V (Proc.devRef .tc main_v1) := by
  refine ⟨?_, ?_, ?_, ?_, ?_, ?_, ?_, ?_⟩ <;> after_results_simp

theorem live_E4a {V : Valuation τ sig (Elt F)}
    (L : Live V xf af x2 x3 x4 x5) : Live (after opsE4a V) xf af x2 x3 x4 x5 :=
  have k := keep_E4a V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- The stretch writes none of these buffers. -/
theorem keep_E4b (V : Valuation τ sig (Elt F)) :
    after opsE4b V (Proc.devRef .tc main_arg0) = V (Proc.devRef .tc main_arg0)
    ∧ after opsE4b V (Proc.devRef .tc main_arg1) = V (Proc.devRef .tc main_arg1)
    ∧ after opsE4b V (Proc.devRef .tc main_arg2) = V (Proc.devRef .tc main_arg2)
    ∧ after opsE4b V (Proc.devRef .tc main_arg3) = V (Proc.devRef .tc main_arg3)
    ∧ after opsE4b V (Proc.devRef .tc main_arg4) = V (Proc.devRef .tc main_arg4)
    ∧ after opsE4b V (Proc.devRef .tc main_arg5) = V (Proc.devRef .tc main_arg5)
    ∧ after opsE4b V (Proc.devRef .tc main_v0) = V (Proc.devRef .tc main_v0)
    ∧ after opsE4b V (Proc.devRef .tc main_v1) = V (Proc.devRef .tc main_v1) := by
  refine ⟨?_, ?_, ?_, ?_, ?_, ?_, ?_, ?_⟩ <;> after_results_simp

theorem live_E4b {V : Valuation τ sig (Elt F)}
    (L : Live V xf af x2 x3 x4 x5) : Live (after opsE4b V) xf af x2 x3 x4 x5 :=
  have k := keep_E4b V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 4's block adds its term to the running total. -/
theorem acc_E4 {V : Valuation τ sig (Elt F)}
    (L : Live V xf af x2 x3 x4 x5) (ha : V (Proc.devRef .tc main_v94) = a) :
    (after opsE4b (after opsE4a V)) (Proc.devRef .tc main_v117)
      = addf a (RefTerm.expertTerm af xf (constantI S_ 32 4#32) (extractStridedSlice S1x512x2048 ![4, 0, 0] x2 slices_S8x512x2048_S1x512x2048_4_0_0) (extractStridedSlice S1x2048 ![4, 0] x3 slices_S8x2048_S1x2048_4_0) (extractStridedSlice S1x2048x512 ![4, 0, 0] x4 slices_S8x2048x512_S1x2048x512_4_0_0) (extractStridedSlice S1x512 ![4, 0] x5 slices_S8x512_S1x512_4_0)) := by
  obtain ⟨h0, h1, h2, h3, h4, h5⟩ := L
  subst h0 h1 h2 h3 h4 h5 ha
  after_results_simp <;> (try simp only [TRef.ofBuf, TRef.toBuf, cast_eq]) <;> rfl

end Cert.ReferenceIdeal.RefRun

end
-- ==== Proof.RefRunValC.lean ====
/-
  What the blocks of experts 5 and 6 do to the values later stretches read: each block leaves the six `Live`
  values and the argument arrays, and adds its expert's term to the running total.
-/
import proofs.«406470_j58420145160626_2_alg».proof.Proof.RefRunValB
import proofs.«406470_j58420145160626_2_alg».proof.Proof.RefRunOps2
import proofs.«406470_j58420145160626_2_alg».proof.Proof.RefRunOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable {xf : (⟨S16384x512, .f32⟩ : BufTy).Contents (Elt F)} {af : (⟨S16384x2, .i32⟩ : BufTy).Contents (Elt F)} {a : (⟨S16384x512, .f32⟩ : BufTy).Contents (Elt F)}
variable {x2 : (⟨S8x512x2048, .f32⟩ : BufTy).Contents (Elt F)} {x3 : (⟨S8x2048, .f32⟩ : BufTy).Contents (Elt F)} {x4 : (⟨S8x2048x512, .f32⟩ : BufTy).Contents (Elt F)} {x5 : (⟨S8x512, .f32⟩ : BufTy).Contents (Elt F)}

/-- The stretch writes none of these buffers. -/
theorem keep_E5 (V : Valuation τ sig (Elt F)) :
    after opsE5 V (Proc.devRef .tc main_arg0) = V (Proc.devRef .tc main_arg0)
    ∧ after opsE5 V (Proc.devRef .tc main_arg1) = V (Proc.devRef .tc main_arg1)
    ∧ after opsE5 V (Proc.devRef .tc main_arg2) = V (Proc.devRef .tc main_arg2)
    ∧ after opsE5 V (Proc.devRef .tc main_arg3) = V (Proc.devRef .tc main_arg3)
    ∧ after opsE5 V (Proc.devRef .tc main_arg4) = V (Proc.devRef .tc main_arg4)
    ∧ after opsE5 V (Proc.devRef .tc main_arg5) = V (Proc.devRef .tc main_arg5)
    ∧ after opsE5 V (Proc.devRef .tc main_v0) = V (Proc.devRef .tc main_v0)
    ∧ after opsE5 V (Proc.devRef .tc main_v1) = V (Proc.devRef .tc main_v1) := by
  refine ⟨?_, ?_, ?_, ?_, ?_, ?_, ?_, ?_⟩ <;> after_results_simp

theorem live_E5 {V : Valuation τ sig (Elt F)}
    (L : Live V xf af x2 x3 x4 x5) : Live (after opsE5 V) xf af x2 x3 x4 x5 :=
  have k := keep_E5 V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 5's block adds its term to the running total. -/
theorem acc_E5 {V : Valuation τ sig (Elt F)}
    (L : Live V xf af x2 x3 x4 x5) (ha : V (Proc.devRef .tc main_v117) = a) :
    (after opsE5 V) (Proc.devRef .tc main_v140)
      = addf a (RefTerm.expertTerm af xf (constantI S_ 32 5#32) (extractStridedSlice S1x512x2048 ![5, 0, 0] x2 slices_S8x512x2048_S1x512x2048_5_0_0) (extractStridedSlice S1x2048 ![5, 0] x3 slices_S8x2048_S1x2048_5_0) (extractStridedSlice S1x2048x512 ![5, 0, 0] x4 slices_S8x2048x512_S1x2048x512_5_0_0) (extractStridedSlice S1x512 ![5, 0] x5 slices_S8x512_S1x512_5_0)) := by
  obtain ⟨h0, h1, h2, h3, h4, h5⟩ := L
  subst h0 h1 h2 h3 h4 h5 ha
  after_results_simp <;> (try simp only [TRef.ofBuf, TRef.toBuf, cast_eq]) <;> rfl

/-- The stretch writes none of these buffers. -/
theorem keep_E6a (V : Valuation τ sig (Elt F)) :
    after opsE6a V (Proc.devRef .tc main_arg0) = V (Proc.devRef .tc main_arg0)
    ∧ after opsE6a V (Proc.devRef .tc main_arg1) = V (Proc.devRef .tc main_arg1)
    ∧ after opsE6a V (Proc.devRef .tc main_arg2) = V (Proc.devRef .tc main_arg2)
    ∧ after opsE6a V (Proc.devRef .tc main_arg3) = V (Proc.devRef .tc main_arg3)
    ∧ after opsE6a V (Proc.devRef .tc main_arg4) = V (Proc.devRef .tc main_arg4)
    ∧ after opsE6a V (Proc.devRef .tc main_arg5) = V (Proc.devRef .tc main_arg5)
    ∧ after opsE6a V (Proc.devRef .tc main_v0) = V (Proc.devRef .tc main_v0)
    ∧ after opsE6a V (Proc.devRef .tc main_v1) = V (Proc.devRef .tc main_v1) := by
  refine ⟨?_, ?_, ?_, ?_, ?_, ?_, ?_, ?_⟩ <;> after_results_simp

theorem live_E6a {V : Valuation τ sig (Elt F)}
    (L : Live V xf af x2 x3 x4 x5) : Live (after opsE6a V) xf af x2 x3 x4 x5 :=
  have k := keep_E6a V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- The stretch writes none of these buffers. -/
theorem keep_E6b (V : Valuation τ sig (Elt F)) :
    after opsE6b V (Proc.devRef .tc main_arg0) = V (Proc.devRef .tc main_arg0)
    ∧ after opsE6b V (Proc.devRef .tc main_arg1) = V (Proc.devRef .tc main_arg1)
    ∧ after opsE6b V (Proc.devRef .tc main_arg2) = V (Proc.devRef .tc main_arg2)
    ∧ after opsE6b V (Proc.devRef .tc main_arg3) = V (Proc.devRef .tc main_arg3)
    ∧ after opsE6b V (Proc.devRef .tc main_arg4) = V (Proc.devRef .tc main_arg4)
    ∧ after opsE6b V (Proc.devRef .tc main_arg5) = V (Proc.devRef .tc main_arg5)
    ∧ after opsE6b V (Proc.devRef .tc main_v0) = V (Proc.devRef .tc main_v0)
    ∧ after opsE6b V (Proc.devRef .tc main_v1) = V (Proc.devRef .tc main_v1) := by
  refine ⟨?_, ?_, ?_, ?_, ?_, ?_, ?_, ?_⟩ <;> after_results_simp

theorem live_E6b {V : Valuation τ sig (Elt F)}
    (L : Live V xf af x2 x3 x4 x5) : Live (after opsE6b V) xf af x2 x3 x4 x5 :=
  have k := keep_E6b V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 6's block adds its term to the running total. -/
theorem acc_E6 {V : Valuation τ sig (Elt F)}
    (L : Live V xf af x2 x3 x4 x5) (ha : V (Proc.devRef .tc main_v140) = a) :
    (after opsE6b (after opsE6a V)) (Proc.devRef .tc main_v163)
      = addf a (RefTerm.expertTerm af xf (constantI S_ 32 6#32) (extractStridedSlice S1x512x2048 ![6, 0, 0] x2 slices_S8x512x2048_S1x512x2048_6_0_0) (extractStridedSlice S1x2048 ![6, 0] x3 slices_S8x2048_S1x2048_6_0) (extractStridedSlice S1x2048x512 ![6, 0, 0] x4 slices_S8x2048x512_S1x2048x512_6_0_0) (extractStridedSlice S1x512 ![6, 0] x5 slices_S8x512_S1x512_6_0)) := by
  obtain ⟨h0, h1, h2, h3, h4, h5⟩ := L
  subst h0 h1 h2 h3 h4 h5 ha
  after_results_simp <;> (try simp only [TRef.ofBuf, TRef.toBuf, cast_eq]) <;> rfl

end Cert.ReferenceIdeal.RefRun

end
-- ==== Proof.RefRunValD.lean ====
/-
  What expert 7's block and the closing stretch do: the block leaves the six `Live` values and the argument
  arrays and adds its expert's term to the running total; the closing stretch halves the total and reshapes it.
-/
import proofs.«406470_j58420145160626_2_alg».proof.Proof.RefRunValC
import proofs.«406470_j58420145160626_2_alg».proof.Proof.RefRunOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable {xf : (⟨S16384x512, .f32⟩ : BufTy).Contents (Elt F)} {af : (⟨S16384x2, .i32⟩ : BufTy).Contents (Elt F)} {a : (⟨S16384x512, .f32⟩ : BufTy).Contents (Elt F)}
variable {x2 : (⟨S8x512x2048, .f32⟩ : BufTy).Contents (Elt F)} {x3 : (⟨S8x2048, .f32⟩ : BufTy).Contents (Elt F)} {x4 : (⟨S8x2048x512, .f32⟩ : BufTy).Contents (Elt F)} {x5 : (⟨S8x512, .f32⟩ : BufTy).Contents (Elt F)}

/-- The stretch writes none of these buffers. -/
theorem keep_E7 (V : Valuation τ sig (Elt F)) :
    after opsE7 V (Proc.devRef .tc main_arg0) = V (Proc.devRef .tc main_arg0)
    ∧ after opsE7 V (Proc.devRef .tc main_arg1) = V (Proc.devRef .tc main_arg1)
    ∧ after opsE7 V (Proc.devRef .tc main_arg2) = V (Proc.devRef .tc main_arg2)
    ∧ after opsE7 V (Proc.devRef .tc main_arg3) = V (Proc.devRef .tc main_arg3)
    ∧ after opsE7 V (Proc.devRef .tc main_arg4) = V (Proc.devRef .tc main_arg4)
    ∧ after opsE7 V (Proc.devRef .tc main_arg5) = V (Proc.devRef .tc main_arg5)
    ∧ after opsE7 V (Proc.devRef .tc main_v0) = V (Proc.devRef .tc main_v0)
    ∧ after opsE7 V (Proc.devRef .tc main_v1) = V (Proc.devRef .tc main_v1) := by
  refine ⟨?_, ?_, ?_, ?_, ?_, ?_, ?_, ?_⟩ <;> after_results_simp

theorem live_E7 {V : Valuation τ sig (Elt F)}
    (L : Live V xf af x2 x3 x4 x5) : Live (after opsE7 V) xf af x2 x3 x4 x5 :=
  have k := keep_E7 V
  ⟨k.2.2.2.2.2.2.1.trans L.hxf, k.2.2.2.2.2.2.2.trans L.haf, k.2.2.1.trans L.h2, k.2.2.2.1.trans L.h3, k.2.2.2.2.1.trans L.h4, k.2.2.2.2.2.1.trans L.h5⟩

/-- Expert 7's block adds its term to the running total. -/
theorem acc_E7 {V : Valuation τ sig (Elt F)}
    (L : Live V xf af x2 x3 x4 x5) (ha : V (Proc.devRef .tc main_v163) = a) :
    (after opsE7 V) (Proc.devRef .tc main_v186)
      = addf a (RefTerm.expertTerm af xf (constantI S_ 32 7#32) (extractStridedSlice S1x512x2048 ![7, 0, 0] x2 slices_S8x512x2048_S1x512x2048_7_0_0) (extractStridedSlice S1x2048 ![7, 0] x3 slices_S8x2048_S1x2048_7_0) (extractStridedSlice S1x2048x512 ![7, 0, 0] x4 slices_S8x2048x512_S1x2048x512_7_0_0) (extractStridedSlice S1x512 ![7, 0] x5 slices_S8x512_S1x512_7_0)) := by
  obtain ⟨h0, h1, h2, h3, h4, h5⟩ := L
  subst h0 h1 h2 h3 h4 h5 ha
  after_results_simp <;> (try simp only [TRef.ofBuf, TRef.toBuf, cast_eq]) <;> rfl

/-- The stretch writes none of these buffers. -/
theorem keep_Post (V : Valuation τ sig (Elt F)) :
    after opsPost V (Proc.devRef .tc main_arg0) = V (Proc.devRef .tc main_arg0)
    ∧ after opsPost V (Proc.devRef .tc main_arg1) = V (Proc.devRef .tc main_arg1)
    ∧ after opsPost V (Proc.devRef .tc main_arg2) = V (Proc.devRef .tc main_arg2)
    ∧ after opsPost V (Proc.devRef .tc main_arg3) = V (Proc.devRef .tc main_arg3)
    ∧ after opsPost V (Proc.devRef .tc main_arg4) = V (Proc.devRef .tc main_arg4)
    ∧ after opsPost V (Proc.devRef .tc main_arg5) = V (Proc.devRef .tc main_arg5) := by
  refine ⟨?_, ?_, ?_, ?_, ?_, ?_⟩ <;> after_results_simp

/-- The closing stretch halves the total and gives it its three axes back. -/
theorem out_Post (V : Valuation τ sig (Elt F)) :
    after opsPost V (Proc.devRef .tc main_v189)
      = shapeCast S8x2048x512 (Host.divf (V (Proc.devRef .tc main_v186)) (broadcastInDim S16384x512 ![] bcast_S_S16384x512 (constant S_ .f32 0x40000000#32))) shapeCasts_S16384x512_S8x2048x512 := by
  after_results_simp <;> (try simp only [TRef.ofBuf, TRef.toBuf, cast_eq]) <;> rfl

end Cert.ReferenceIdeal.RefRun

end
-- ==== Proof.RefRun.lean ====
/-
  The reference program's run. Its @main is the four windows' operation lists in order (`main_eq`); every weakly
  fair execution therefore ends with each buffer at the fold of the operations' results over the launch contents.
  Read stretch by stretch, that fold leaves the six argument arrays as they were and puts in the result buffer the
  reference's term `RefTerm.refOut` of them: the opening stretch flattens the activations and the assignments and
  starts the total at zero, each expert's block adds `RefTerm.expertTerm` of its parameter slices, and the closing
  stretch halves the total and reshapes it.
-/
import proofs.«406470_j58420145160626_2_alg».proof.Proof.RefRunValD

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 248 operations, in order: the four windows'. -/
def ops : List (HloOp τ sig (Elt F)) := opsW0 ++ (opsW1 ++ (opsW2 ++ opsW3))

theorem main_eq (c : Dev nD) : main (F := F) c = seq ops := by
  rw [ops, seq_append opsW0, seq_append opsW1, seq_append opsW2,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsW0_sub op h
    rcases List.mem_append.mp h with h | h
    · exact List.forall_iff_forall_mem.mp opsW1_sub op h
    rcases List.mem_append.mp h with h | h
    · exact List.forall_iff_forall_mem.mp opsW2_sub op h
    · exact List.forall_iff_forall_mem.mp opsW3_sub op h

theorem ops_fresh : ∀ op ∈ (ops : List (HloOp τ sig (Elt F))), op.fresh = ∅ := by
  intro op h
  rcases List.mem_append.mp h with h | h
  · exact opsW0_fresh op h
  rcases List.mem_append.mp h with h | h
  · exact opsW1_fresh op h
  rcases List.mem_append.mp h with h | h
  · exact opsW2_fresh op h
  · exact opsW3_fresh op h

/-- The fold over all the operations is the folds over the stretches, one after the other. -/
theorem after_ops (V : Valuation τ sig (Elt F)) :
    after ops V = after opsPost (after opsE7 (after opsE6b (after opsE6a (after opsE5 (after opsE4b (after opsE4a (after opsE3 (after opsE2b (after opsE2a (after opsE1 (after opsE0 (after opsPre V)))))))))))) := by
  simp only [ops, opsW0, opsW1, opsW2, opsW3, after_app]

theorem after_ops_arg0 (V : Valuation τ sig (Elt F)) : after ops V (Proc.devRef .tc main_arg0) = V (Proc.devRef .tc main_arg0) := by
  rw [after_ops]
  exact ((keep_Post _).1).trans (((keep_E7 _).1).trans (((keep_E6b _).1).trans (((keep_E6a _).1).trans (((keep_E5 _).1).trans (((keep_E4b _).1).trans (((keep_E4a _).1).trans (((keep_E3 _).1).trans (((keep_E2b _).1).trans (((keep_E2a _).1).trans (((keep_E1 _).1).trans (((keep_E0 _).1).trans ((keep_Pre _).1))))))))))))

theorem after_ops_arg1 (V : Valuation τ sig (Elt F)) : after ops V (Proc.devRef .tc main_arg1) = V (Proc.devRef .tc main_arg1) := by
  rw [after_ops]
  exact ((keep_Post _).2.1).trans (((keep_E7 _).2.1).trans (((keep_E6b _).2.1).trans (((keep_E6a _).2.1).trans (((keep_E5 _).2.1).trans (((keep_E4b _).2.1).trans (((keep_E4a _).2.1).trans (((keep_E3 _).2.1).trans (((keep_E2b _).2.1).trans (((keep_E2a _).2.1).trans (((keep_E1 _).2.1).trans (((keep_E0 _).2.1).trans ((keep_Pre _).2.1))))))))))))

theorem after_ops_arg2 (V : Valuation τ sig (Elt F)) : after ops V (Proc.devRef .tc main_arg2) = V (Proc.devRef .tc main_arg2) := by
  rw [after_ops]
  exact ((keep_Post _).2.2.1).trans (((keep_E7 _).2.2.1).trans (((keep_E6b _).2.2.1).trans (((keep_E6a _).2.2.1).trans (((keep_E5 _).2.2.1).trans (((keep_E4b _).2.2.1).trans (((keep_E4a _).2.2.1).trans (((keep_E3 _).2.2.1).trans (((keep_E2b _).2.2.1).trans (((keep_E2a _).2.2.1).trans (((keep_E1 _).2.2.1).trans (((keep_E0 _).2.2.1).trans ((keep_Pre _).2.2.1))))))))))))

theorem after_ops_arg3 (V : Valuation τ sig (Elt F)) : after ops V (Proc.devRef .tc main_arg3) = V (Proc.devRef .tc main_arg3) := by
  rw [after_ops]
  exact ((keep_Post _).2.2.2.1).trans (((keep_E7 _).2.2.2.1).trans (((keep_E6b _).2.2.2.1).trans (((keep_E6a _).2.2.2.1).trans (((keep_E5 _).2.2.2.1).trans (((keep_E4b _).2.2.2.1).trans (((keep_E4a _).2.2.2.1).trans (((keep_E3 _).2.2.2.1).trans (((keep_E2b _).2.2.2.1).trans (((keep_E2a _).2.2.2.1).trans (((keep_E1 _).2.2.2.1).trans (((keep_E0 _).2.2.2.1).trans ((keep_Pre _).2.2.2.1))))))))))))

theorem after_ops_arg4 (V : Valuation τ sig (Elt F)) : after ops V (Proc.devRef .tc main_arg4) = V (Proc.devRef .tc main_arg4) := by
  rw [after_ops]
  exact ((keep_Post _).2.2.2.2.1).trans (((keep_E7 _).2.2.2.2.1).trans (((keep_E6b _).2.2.2.2.1).trans (((keep_E6a _).2.2.2.2.1).trans (((keep_E5 _).2.2.2.2.1).trans (((keep_E4b _).2.2.2.2.1).trans (((keep_E4a _).2.2.2.2.1).trans (((keep_E3 _).2.2.2.2.1).trans (((keep_E2b _).2.2.2.2.1).trans (((keep_E2a _).2.2.2.2.1).trans (((keep_E1 _).2.2.2.2.1).trans (((keep_E0 _).2.2.2.2.1).trans ((keep_Pre _).2.2.2.2.1))))))))))))

theorem after_ops_arg5 (V : Valuation τ sig (Elt F)) : after ops V (Proc.devRef .tc main_arg5) = V (Proc.devRef .tc main_arg5) := by
  rw [after_ops]
  exact ((keep_Post _).2.2.2.2.2).trans (((keep_E7 _).2.2.2.2.2.1).trans (((keep_E6b _).2.2.2.2.2.1).trans (((keep_E6a _).2.2.2.2.2.1).trans (((keep_E5 _).2.2.2.2.2.1).trans (((keep_E4b _).2.2.2.2.2.1).trans (((keep_E4a _).2.2.2.2.2.1).trans (((keep_E3 _).2.2.2.2.2.1).trans (((keep_E2b _).2.2.2.2.2.1).trans (((keep_E2a _).2.2.2.2.2.1).trans (((keep_E1 _).2.2.2.2.2.1).trans (((keep_E0 _).2.2.2.2.2.1).trans ((keep_Pre _).2.2.2.2.2))))))))))))

/-- The result buffer ends at the reference's term of the six argument arrays. -/
theorem after_ops_out (V : Valuation τ sig (Elt F)) :
    after ops V (Proc.devRef .tc main_v189)
      = RefTerm.refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  have L0 := live_Pre V
  have A0 := acc_E0 L0 (acc_Pre V)
  have L1 := live_E0 L0
  have A1 := acc_E1 L1 A0
  have L2 := live_E1 L1
  have A2 := acc_E2 L2 A1
  have L3 := live_E2b (live_E2a L2)
  have A3 := acc_E3 L3 A2
  have L4 := live_E3 L3
  have A4 := acc_E4 L4 A3
  have L5 := live_E4b (live_E4a L4)
  have A5 := acc_E5 L5 A4
  have L6 := live_E5 L5
  have A6 := acc_E6 L6 A5
  have L7 := live_E6b (live_E6a L6)
  have A7 := acc_E7 L7 A6
  rw [out_Post, A7]
  rfl

/-- On every device, for any float values, from any memory with zero counters: every weakly fair execution of
    @main terminates with the result buffer at `RefTerm.refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v189)
          = Cert.ReferenceIdeal.RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v189).trans (after_ops_out _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _)⟩)
    (run_seq scopedRefs_eq scopedSems_eq defs main (fun _ => ops) main_eq (fun _ => ops_sub) m ρ (fun _ => ops_fresh))

end Cert.ReferenceIdeal.RefRun

end
-- ==== Proof.RefValueTerm.lean ====
/-
  One expert's contribution to the reference's result, read at a token `n` and an output feature `d`, at the ideal
  instance (floats are extended reals). The term is a select, on the or over the token's two assignment slots of "the
  slot holds the expert's word", of the perceptron `max (x · W1 + b1) 0 · W2 + b2`; here each operation is read at an
  index — the or-reduce over the axis of extent two as the or of its two elements, each contraction as the sum over
  its one contracted axis, each reshape and broadcast as its operand at the matching coordinates — over variables,
  so that the one lemma `expertTerm_apply` serves all eight experts.
-/
import proofs.«406470_j58420145160626_2_alg».proof.Proof.RefTerm
import proofs.«406470_j58420145160626_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefTerm

/-! ## The or over a token's two assignment slots -/

instance : Std.Commutative (IntOp.ori (w := 1)) := ⟨fun x y => BitVec.or_comm x y⟩
instance : Std.Associative (IntOp.ori (w := 1)) := ⟨fun x y z => BitVec.or_assoc x y z⟩

theorem reduces_d1 : S16384x2.Reduces [1] S16384 := by decide

/-- The index over token `n` with slot `k` inserted is `(n, k)`. -/
theorem lift_d1 (n : Fin 16384) (k : Fin 2) : reduces_d1.lift (ix1 n) k = ix2 n k := by
  funext a
  match a with
  | ⟨0, _⟩ => exact Fin.ext rfl
  | ⟨1, _⟩ => exact Fin.ext rfl

/-- The fold of or from the zero bit over two elements is their or. -/
theorem fold_ori_two (g : Fin 2 → BitVec 1) :
    (Finset.univ : Finset (Fin 2)).fold IntOp.ori 0#1 g = IntOp.ori (g 0) (g 1) := by
  rw [show (Finset.univ : Finset (Fin 2)) = {0, 1} from rfl, Finset.fold_insert (by decide), Finset.fold_singleton]
  simp [IntOp.ori]

/-- The or-reduce over the slot axis at token `n` is the or of the two slots' bits. -/
theorem orReduce_apply (c : IVec S16384x2 1) (n : Fin 16384) :
    Host.reduce IntOp.ori c (constantI S_ 1 0#1) reducesTo_S16384x2_S16384_d1 h_S_ (ix1 n)
      = IntOp.ori (c (ix2 n 0)) (c (ix2 n 1)) := by
  rw [Host.reduce_eq_fold_single IntOp.ori c _ reducesTo_S16384x2_S16384_d1 reduces_d1 h_S_]
  refine (fold_ori_two fun k => c (reduces_d1.lift (ix1 n) k)).trans ?_
  rw [lift_d1, lift_d1]

/-! ## The two contractions read at an index -/

theorem lhs_dot1_0 (i : S16384x2048.Idx) (q : dot_S16384x512_S512x2048_S16384x2048_1_0_0_1_n_n.contr.Idx) : (dot_S16384x512_S512x2048_S16384x2048_1_0_0_1_n_n.lhsIdx i q 0).val = (i 0).val := by
  unfold DotDims.lhsIdx
  rw [dif_neg (show ¬(0 : Fin S16384x512.rank) ∈ dot_S16384x512_S512x2048_S16384x2048_1_0_0_1_n_n.lhsBatch by decide), dif_pos (show (0 : Fin S16384x512.rank) ∈ dot_S16384x512_S512x2048_S16384x2048_1_0_0_1_n_n.lhsNonContracting by decide)]
  rfl
theorem lhs_dot1_1 (i : S16384x2048.Idx) (q : dot_S16384x512_S512x2048_S16384x2048_1_0_0_1_n_n.contr.Idx) : (dot_S16384x512_S512x2048_S16384x2048_1_0_0_1_n_n.lhsIdx i q 1).val = (q ⟨0, by decide⟩).val :=
  dot_S16384x512_S512x2048_S16384x2048_1_0_0_1_n_n.lhsIdx_val_of_single rfl i q
theorem rhs_dot1_0 (i : S16384x2048.Idx) (q : dot_S16384x512_S512x2048_S16384x2048_1_0_0_1_n_n.contr.Idx) : (dot_S16384x512_S512x2048_S16384x2048_1_0_0_1_n_n.rhsIdx i q 0).val = (q ⟨0, by decide⟩).val :=
  dot_S16384x512_S512x2048_S16384x2048_1_0_0_1_n_n.rhsIdx_val_of_single rfl i q
theorem rhs_dot1_1 (i : S16384x2048.Idx) (q : dot_S16384x512_S512x2048_S16384x2048_1_0_0_1_n_n.contr.Idx) : (dot_S16384x512_S512x2048_S16384x2048_1_0_0_1_n_n.rhsIdx i q 1).val = (i 1).val := by
  unfold DotDims.rhsIdx
  rw [dif_neg (show ¬(1 : Fin S512x2048.rank) ∈ dot_S16384x512_S512x2048_S16384x2048_1_0_0_1_n_n.rhsBatch by decide), dif_pos (show (1 : Fin S512x2048.rank) ∈ dot_S16384x512_S512x2048_S16384x2048_1_0_0_1_n_n.rhsNonContracting by decide)]
  rfl

/-- The first layer's contraction at token `n`, hidden unit `h`: the sum over the 512 input features. -/
theorem dot1_apply (x : (⟨S16384x512, .f32⟩ : BufTy).Contents (Elt Ideal)) (w : (⟨S512x2048, .f32⟩ : BufTy).Contents (Elt Ideal))
    (n : Fin 16384) (h : Fin 2048) :
    Host.dotGeneral (F := Ideal) (φ₁ := .f32) (φ₂ := .f32) dot_S16384x512_S512x2048_S16384x2048_1_0_0_1_n_n none x w (ix2 n h) = ∑ k : Fin 512, x (ix2 n k) * w (ix2 k h) := by
  simp only [Host.dotGeneral]
  rw [Ideal.dotGeneral_apply, ← Equiv.sum_comp (contrEquiv1 dot_S16384x512_S512x2048_S16384x2048_1_0_0_1_n_n 512 rfl rfl).symm]
  refine Finset.sum_congr rfl fun k _ => ?_
  have hk := contrEquiv1_symm_val dot_S16384x512_S512x2048_S16384x2048_1_0_0_1_n_n 512 rfl rfl k
  have el : dot_S16384x512_S512x2048_S16384x2048_1_0_0_1_n_n.lhsIdx (ix2 n h) ((contrEquiv1 dot_S16384x512_S512x2048_S16384x2048_1_0_0_1_n_n 512 rfl rfl).symm k) = ix2 n k :=
    funext fun a => Fin.ext (by
      match a with
      | ⟨0, _⟩ => exact lhs_dot1_0 _ _
      | ⟨1, _⟩ => exact (lhs_dot1_1 _ _).trans hk)
  have er : dot_S16384x512_S512x2048_S16384x2048_1_0_0_1_n_n.rhsIdx (ix2 n h) ((contrEquiv1 dot_S16384x512_S512x2048_S16384x2048_1_0_0_1_n_n 512 rfl rfl).symm k) = ix2 k h :=
    funext fun a => Fin.ext (by
      match a with
      | ⟨0, _⟩ => exact (rhs_dot1_0 _ _).trans hk
      | ⟨1, _⟩ => exact rhs_dot1_1 _ _)
  rw [el, er]

theorem lhs_dot2_0 (i : S16384x512.Idx) (q : dot_S16384x2048_S2048x512_S16384x512_1_0_0_1_n_n.contr.Idx) : (dot_S16384x2048_S2048x512_S16384x512_1_0_0_1_n_n.lhsIdx i q 0).val = (i 0).val := by
  unfold DotDims.lhsIdx
  rw [dif_neg (show ¬(0 : Fin S16384x2048.rank) ∈ dot_S16384x2048_S2048x512_S16384x512_1_0_0_1_n_n.lhsBatch by decide), dif_pos (show (0 : Fin S16384x2048.rank) ∈ dot_S16384x2048_S2048x512_S16384x512_1_0_0_1_n_n.lhsNonContracting by decide)]
  rfl
theorem lhs_dot2_1 (i : S16384x512.Idx) (q : dot_S16384x2048_S2048x512_S16384x512_1_0_0_1_n_n.contr.Idx) : (dot_S16384x2048_S2048x512_S16384x512_1_0_0_1_n_n.lhsIdx i q 1).val = (q ⟨0, by decide⟩).val :=
  dot_S16384x2048_S2048x512_S16384x512_1_0_0_1_n_n.lhsIdx_val_of_single rfl i q
theorem rhs_dot2_0 (i : S16384x512.Idx) (q : dot_S16384x2048_S2048x512_S16384x512_1_0_0_1_n_n.contr.Idx) : (dot_S16384x2048_S2048x512_S16384x512_1_0_0_1_n_n.rhsIdx i q 0).val = (q ⟨0, by decide⟩).val :=
  dot_S16384x2048_S2048x512_S16384x512_1_0_0_1_n_n.rhsIdx_val_of_single rfl i q
theorem rhs_dot2_1 (i : S16384x512.Idx) (q : dot_S16384x2048_S2048x512_S16384x512_1_0_0_1_n_n.contr.Idx) : (dot_S16384x2048_S2048x512_S16384x512_1_0_0_1_n_n.rhsIdx i q 1).val = (i 1).val := by
  unfold DotDims.rhsIdx
  rw [dif_neg (show ¬(1 : Fin S2048x512.rank) ∈ dot_S16384x2048_S2048x512_S16384x512_1_0_0_1_n_n.rhsBatch by decide), dif_pos (show (1 : Fin S2048x512.rank) ∈ dot_S16384x2048_S2048x512_S16384x512_1_0_0_1_n_n.rhsNonContracting by decide)]
  rfl

/-- The second layer's contraction at token `n`, output feature `d`: the sum over the 2048 hidden units. -/
theorem dot2_apply (x : (⟨S16384x2048, .f32⟩ : BufTy).Contents (Elt Ideal)) (w : (⟨S2048x512, .f32⟩ : BufTy).Contents (Elt Ideal))
    (n : Fin 16384) (h : Fin 512) :
    Host.dotGeneral (F := Ideal) (φ₁ := .f32) (φ₂ := .f32) dot_S16384x2048_S2048x512_S16384x512_1_0_0_1_n_n none x w (ix2 n h) = ∑ k : Fin 2048, x (ix2 n k) * w (ix2 k h) := by
  simp only [Host.dotGeneral]
  rw [Ideal.dotGeneral_apply, ← Equiv.sum_comp (contrEquiv1 dot_S16384x2048_S2048x512_S16384x512_1_0_0_1_n_n 2048 rfl rfl).symm]
  refine Finset.sum_congr rfl fun k _ => ?_
  have hk := contrEquiv1_symm_val dot_S16384x2048_S2048x512_S16384x512_1_0_0_1_n_n 2048 rfl rfl k
  have el : dot_S16384x2048_S2048x512_S16384x512_1_0_0_1_n_n.lhsIdx (ix2 n h) ((contrEquiv1 dot_S16384x2048_S2048x512_S16384x512_1_0_0_1_n_n 2048 rfl rfl).symm k) = ix2 n k :=
    funext fun a => Fin.ext (by
      match a with
      | ⟨0, _⟩ => exact lhs_dot2_0 _ _
      | ⟨1, _⟩ => exact (lhs_dot2_1 _ _).trans hk)
  have er : dot_S16384x2048_S2048x512_S16384x512_1_0_0_1_n_n.rhsIdx (ix2 n h) ((contrEquiv1 dot_S16384x2048_S2048x512_S16384x512_1_0_0_1_n_n 2048 rfl rfl).symm k) = ix2 k h :=
    funext fun a => Fin.ext (by
      match a with
      | ⟨0, _⟩ => exact (rhs_dot2_0 _ _).trans hk
      | ⟨1, _⟩ => exact rhs_dot2_1 _ _)
  rw [el, er]

/-! ## The layout operations of one expert's term, read at an index -/

/-- The first layer's weights, leading unit axis dropped. -/
theorem w1cast_apply {α : Type} (w1 : S1x512x2048.Idx → α) (k : Fin 512) (h : Fin 2048) :
    shapeCast S512x2048 w1 shapeCasts_S1x512x2048_S512x2048 (ix2 k h) = w1 (ix3 0 k h) :=
  shapeCast_apply w1 shapeCasts_S1x512x2048_S512x2048 (ix2 k h) (ix3 0 k h)
    (by rewrite [Shape.rowMajor_val_three, Shape.rowMajor_val_two]
        show (0 * 512 + k.val) * 2048 + h.val = k.val * 2048 + h.val; omega)

/-- The second layer's weights, leading unit axis dropped. -/
theorem w2cast_apply {α : Type} (w2 : S1x2048x512.Idx → α) (h : Fin 2048) (d : Fin 512) :
    shapeCast S2048x512 w2 shapeCasts_S1x2048x512_S2048x512 (ix2 h d) = w2 (ix3 0 h d) :=
  shapeCast_apply w2 shapeCasts_S1x2048x512_S2048x512 (ix2 h d) (ix3 0 h d)
    (by rewrite [Shape.rowMajor_val_three, Shape.rowMajor_val_two]
        show (0 * 2048 + h.val) * 512 + d.val = h.val * 512 + d.val; omega)

/-- The first layer's bias, spread over the tokens. -/
theorem b1bcast_apply {α : Type} (b1 : S1x2048.Idx → α) (n : Fin 16384) (h : Fin 2048) :
    broadcastInDim S16384x2048 ![0, 1] bcast_S1x2048_S16384x2048_0_1 (broadcastInDim S1x2048 ![1] bcast_S2048_S1x2048_1
      (shapeCast S2048 b1 shapeCasts_S1x2048_S2048)) (ix2 n h) = b1 (ix2 0 h) := by
  refine (broadcastInDim_apply _ bcast_S1x2048_S16384x2048_0_1 _ (ix2 n h) (ix2 0 h) (fun a => match a with
    | ⟨0, _⟩ => by show 0 = if (1 : Nat) = 1 then 0 else n.val; rw [if_pos rfl]
    | ⟨1, _⟩ => by show h.val = if (2048 : Nat) = 1 then 0 else h.val; rw [if_neg (by decide)])).trans ?_
  refine (broadcastInDim_apply _ bcast_S2048_S1x2048_1 _ (ix2 0 h) (ix1 h) (fun a => match a with
    | ⟨0, _⟩ => by show h.val = if (2048 : Nat) = 1 then 0 else h.val; rw [if_neg (by decide)])).trans ?_
  exact shapeCast_apply b1 shapeCasts_S1x2048_S2048 (ix1 h) (ix2 0 h)
    (by rewrite [Shape.rowMajor_val_two, Shape.rowMajor_val_one]
        show 0 * 2048 + h.val = h.val; omega)

/-- The second layer's bias, spread over the tokens. -/
theorem b2bcast_apply {α : Type} (b2 : S1x512.Idx → α) (n : Fin 16384) (d : Fin 512) :
    broadcastInDim S16384x512 ![0, 1] bcast_S1x512_S16384x512_0_1 (broadcastInDim S1x512 ![1] bcast_S512_S1x512_1
      (shapeCast S512 b2 shapeCasts_S1x512_S512)) (ix2 n d) = b2 (ix2 0 d) := by
  refine (broadcastInDim_apply _ bcast_S1x512_S16384x512_0_1 _ (ix2 n d) (ix2 0 d) (fun a => match a with
    | ⟨0, _⟩ => by show 0 = if (1 : Nat) = 1 then 0 else n.val; rw [if_pos rfl]
    | ⟨1, _⟩ => by show d.val = if (512 : Nat) = 1 then 0 else d.val; rw [if_neg (by decide)])).trans ?_
  refine (broadcastInDim_apply _ bcast_S512_S1x512_1 _ (ix2 0 d) (ix1 d) (fun a => match a with
    | ⟨0, _⟩ => by show d.val = if (512 : Nat) = 1 then 0 else d.val; rw [if_neg (by decide)])).trans ?_
  exact shapeCast_apply b2 shapeCasts_S1x512_S512 (ix1 d) (ix2 0 d)
    (by rewrite [Shape.rowMajor_val_two, Shape.rowMajor_val_one]
        show 0 * 512 + d.val = d.val; omega)

/-- A scalar spread over an array reads the scalar everywhere. -/
theorem splat2048_apply {α : Type} (c : S_.Idx → α) (i : S16384x2048.Idx) :
    broadcastInDim S16384x2048 ![] bcast_S_S16384x2048 c i = c ix0 :=
  broadcastInDim_apply _ bcast_S_S16384x2048 c i ix0 (fun a => a.elim0)
theorem splat512_apply {α : Type} (c : S_.Idx → α) (i : S16384x512.Idx) :
    broadcastInDim S16384x512 ![] bcast_S_S16384x512 c i = c ix0 :=
  broadcastInDim_apply _ bcast_S_S16384x512 c i ix0 (fun a => a.elim0)
theorem splat2_apply {α : Type} (c : S_.Idx → α) (i : S16384x2.Idx) :
    broadcastInDim S16384x2 ![] bcast_S_S16384x2 c i = c ix0 :=
  broadcastInDim_apply _ bcast_S_S16384x2 c i ix0 (fun a => a.elim0)

/-- A per-token bit spread over the features. -/
theorem rowbcast_apply {α : Type} (r : S16384.Idx → α) (n : Fin 16384) (d : Fin 512) :
    broadcastInDim S16384x512 ![0, 1] bcast_S16384x1_S16384x512_0_1 (broadcastInDim S16384x1 ![0] bcast_S16384_S16384x1_0 r) (ix2 n d)
      = r (ix1 n) := by
  refine (broadcastInDim_apply _ bcast_S16384x1_S16384x512_0_1 _ (ix2 n d) (ix2 n 0) (fun a => match a with
    | ⟨0, _⟩ => by show n.val = if (16384 : Nat) = 1 then 0 else n.val; rw [if_neg (by decide)]
    | ⟨1, _⟩ => by show 0 = if (1 : Nat) = 1 then 0 else d.val; rw [if_pos rfl])).trans ?_
  exact broadcastInDim_apply _ bcast_S16384_S16384x1_0 r (ix2 n 0) (ix1 n) (fun a => match a with
    | ⟨0, _⟩ => by show n.val = if (16384 : Nat) = 1 then 0 else n.val; rw [if_neg (by decide)])

/-! ## One expert's term at a token and a feature -/

/-- An integer comparison at an index compares the elements. -/
theorem cmpi_apply {s : Shape} {w : Nat} (p : CmpIPredicate) (x y : IVec s w) (i : s.Idx) : cmpi p x y i = IntOp.cmpi p (x i) (y i) := rfl

/-- The first layer after the rectifier at token `n`, hidden unit `h`. -/
theorem hidden_apply (xf : (⟨S16384x512, .f32⟩ : BufTy).Contents (Elt Ideal))
    (w1 : (⟨S1x512x2048, .f32⟩ : BufTy).Contents (Elt Ideal)) (b1 : (⟨S1x2048, .f32⟩ : BufTy).Contents (Elt Ideal))
    (n : Fin 16384) (h : Fin 2048) :
    maximumf (F := Ideal) (φ := .f32) (addf (Host.dotGeneral (F := Ideal) (φ₁ := .f32) (φ₂ := .f32) dot_S16384x512_S512x2048_S16384x2048_1_0_0_1_n_n none xf (shapeCast S512x2048 w1 shapeCasts_S1x512x2048_S512x2048))
        (broadcastInDim S16384x2048 ![0, 1] bcast_S1x2048_S16384x2048_0_1 (broadcastInDim S1x2048 ![1] bcast_S2048_S1x2048_1 (shapeCast S2048 b1 shapeCasts_S1x2048_S2048))))
      (broadcastInDim S16384x2048 ![] bcast_S_S16384x2048 (constant S_ .f32 0x00000000#32)) (ix2 n h)
      = max ((∑ k : Fin 512, xf (ix2 n k) * w1 (ix3 0 k h)) + b1 (ix2 0 h)) (0 : EReal) := by
  rw [maximumf_apply, addf_apply, dot1_apply, b1bcast_apply, splat2048_apply, constant_apply, Ideal.ofBits_zero_f32]
  simp only [w1cast_apply]

/-- One expert's contribution at token `n`, feature `d`: the two-layer perceptron of the token's activations against the
    parameter slices' one leading coordinate, kept where one of the token's two assignment slots holds the expert's word. -/
theorem expertTerm_apply (af : (⟨S16384x2, .i32⟩ : BufTy).Contents (Elt Ideal)) (xf : (⟨S16384x512, .f32⟩ : BufTy).Contents (Elt Ideal))
    (eid : (⟨S_, .i32⟩ : BufTy).Contents (Elt Ideal))
    (w1 : (⟨S1x512x2048, .f32⟩ : BufTy).Contents (Elt Ideal)) (b1 : (⟨S1x2048, .f32⟩ : BufTy).Contents (Elt Ideal))
    (w2 : (⟨S1x2048x512, .f32⟩ : BufTy).Contents (Elt Ideal)) (b2 : (⟨S1x512, .f32⟩ : BufTy).Contents (Elt Ideal))
    (n : Fin 16384) (d : Fin 512) :
    expertTerm (F := Ideal) af xf eid w1 b1 w2 b2 (ix2 n d)
      = Scalar.select (IntOp.ori (IntOp.cmpi .eq (af (ix2 n 0)) (eid ix0)) (IntOp.cmpi .eq (af (ix2 n 1)) (eid ix0)))
          ((∑ h : Fin 2048, max ((∑ k : Fin 512, xf (ix2 n k) * w1 (ix3 0 k h)) + b1 (ix2 0 h)) 0 * w2 (ix3 0 h d)) + b2 (ix2 0 d))
          (0 : EReal) := by
  unfold expertTerm
  rw [select_apply, rowbcast_apply, orReduce_apply, cmpi_apply, cmpi_apply, splat2_apply, splat2_apply, splat512_apply,
    constant_apply, Ideal.ofBits_zero_f32, addf_apply, dot2_apply, b2bcast_apply]
  refine congrArg (fun v => Scalar.select _ (v + b2 (ix2 0 d)) (0 : EReal)) (Finset.sum_congr rfl fun h _ => ?_)
  rw [hidden_apply, w2cast_apply]

end Cert.ReferenceIdeal.RefValue

end
-- ==== Proof.RefValue.lean ====
/-
  The reference's result, index by index, at the ideal instance. At a flat index (n, d) the reference divides by two
  the sum, left to right from zero, of the eight experts' terms; expert `o`'s term reads its parameters through the
  slices `[o : o + 1, …]`, which at leading coordinate 0 are the stacked arrays at leading coordinate `o`, and its
  select on the or of the two slot comparisons with the word `o` is the `if` on "the token is routed to `o`". Division
  by the real 2 is the product with one half. So the flat array is the specification's `refArr`, and the two sides
  carry the same outer reshape.
-/
import proofs.«406470_j58420145160626_2_alg».proof.Proof.RefValueTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefTerm

/-! ## The parameter slices read at an index: expert `o`'s slice at leading coordinate 0 is the array at leading coordinate `o` -/

theorem slice_w1_apply {α : Type} (x : S8x512x2048.Idx → α) (o : Nat) (ho : o < 8) (hs : S8x512x2048.Slices ![o, 0, 0] S1x512x2048)
    (k : Fin 512) (h : Fin 2048) :
    extractStridedSlice S1x512x2048 ![o, 0, 0] x hs (ix3 0 k h) = x (ix3 ⟨o, ho⟩ k h) :=
  extractStridedSlice_apply ![o, 0, 0] x hs (ix3 0 k h) (ix3 ⟨o, ho⟩ k h) (fun a => match a with
    | ⟨0, _⟩ => by show o = o + 0; omega
    | ⟨1, _⟩ => by show k.val = 0 + k.val; omega
    | ⟨2, _⟩ => by show h.val = 0 + h.val; omega)

theorem slice_b1_apply {α : Type} (x : S8x2048.Idx → α) (o : Nat) (ho : o < 8) (hs : S8x2048.Slices ![o, 0] S1x2048) (h : Fin 2048) :
    extractStridedSlice S1x2048 ![o, 0] x hs (ix2 0 h) = x (ix2 ⟨o, ho⟩ h) :=
  extractStridedSlice_apply ![o, 0] x hs (ix2 0 h) (ix2 ⟨o, ho⟩ h) (fun a => match a with
    | ⟨0, _⟩ => by show o = o + 0; omega
    | ⟨1, _⟩ => by show h.val = 0 + h.val; omega)

theorem slice_w2_apply {α : Type} (x : S8x2048x512.Idx → α) (o : Nat) (ho : o < 8) (hs : S8x2048x512.Slices ![o, 0, 0] S1x2048x512)
    (h : Fin 2048) (d : Fin 512) :
    extractStridedSlice S1x2048x512 ![o, 0, 0] x hs (ix3 0 h d) = x (ix3 ⟨o, ho⟩ h d) :=
  extractStridedSlice_apply ![o, 0, 0] x hs (ix3 0 h d) (ix3 ⟨o, ho⟩ h d) (fun a => match a with
    | ⟨0, _⟩ => by show o = o + 0; omega
    | ⟨1, _⟩ => by show h.val = 0 + h.val; omega
    | ⟨2, _⟩ => by show d.val = 0 + d.val; omega)

theorem slice_b2_apply {α : Type} (x : S8x512.Idx → α) (o : Nat) (ho : o < 8) (hs : S8x512.Slices ![o, 0] S1x512) (d : Fin 512) :
    extractStridedSlice S1x512 ![o, 0] x hs (ix2 0 d) = x (ix2 ⟨o, ho⟩ d) :=
  extractStridedSlice_apply ![o, 0] x hs (ix2 0 d) (ix2 ⟨o, ho⟩ d) (fun a => match a with
    | ⟨0, _⟩ => by show o = o + 0; omega
    | ⟨1, _⟩ => by show d.val = 0 + d.val; omega)

/-! ## The routing bit -/

theorem cmpi_eq_of_eq {a w : BitVec 32} (h : a = w) : IntOp.cmpi .eq a w = 1#1 := by subst h; simp [IntOp.cmpi]
theorem cmpi_eq_of_ne {a w : BitVec 32} (h : ¬a = w) : IntOp.cmpi .eq a w = 0#1 := by
  have hb : (a == w) = false := beq_eq_false_iff_ne.mpr h
  simp [IntOp.cmpi, hb]

/-- The select on "one of the two slots holds the word `w`" is the `if` on that disjunction. -/
theorem select_routed (a0 a1 w : BitVec 32) (A : EReal) :
    Scalar.select (IntOp.ori (IntOp.cmpi .eq a0 w) (IntOp.cmpi .eq a1 w)) A (0 : EReal) = if a0 = w ∨ a1 = w then A else 0 := by
  by_cases h0 : a0 = w <;> by_cases h1 : a1 = w
  · rw [cmpi_eq_of_eq h0, cmpi_eq_of_eq h1, if_pos (Or.inl h0), show IntOp.ori 1#1 1#1 = 1#1 from by decide, select_one]
  · rw [cmpi_eq_of_eq h0, cmpi_eq_of_ne h1, if_pos (Or.inl h0), show IntOp.ori 1#1 0#1 = 1#1 from by decide, select_one]
  · rw [cmpi_eq_of_ne h0, cmpi_eq_of_eq h1, if_pos (Or.inr h1), show IntOp.ori 0#1 1#1 = 1#1 from by decide, select_one]
  · rw [cmpi_eq_of_ne h0, cmpi_eq_of_ne h1, if_neg (fun h => h.elim h0 h1), show IntOp.ori 0#1 0#1 = 0#1 from by decide, select_zero]

/-! ## One expert's term is the specification's routed output -/

/-- Expert `o`'s term at token `n`, feature `d`: the expert's output where the token is routed to it, zero elsewhere. -/
theorem term_eq (af : (⟨S16384x2, .i32⟩ : BufTy).Contents (Elt Ideal)) (xf : (⟨S16384x512, .f32⟩ : BufTy).Contents (Elt Ideal))
    (x2 : (⟨S8x512x2048, .f32⟩ : BufTy).Contents (Elt Ideal)) (x3 : (⟨S8x2048, .f32⟩ : BufTy).Contents (Elt Ideal))
    (x4 : (⟨S8x2048x512, .f32⟩ : BufTy).Contents (Elt Ideal)) (x5 : (⟨S8x512, .f32⟩ : BufTy).Contents (Elt Ideal))
    (o : Nat) (ho : o < 8)
    (hs2 : S8x512x2048.Slices ![o, 0, 0] S1x512x2048) (hs3 : S8x2048.Slices ![o, 0] S1x2048)
    (hs4 : S8x2048x512.Slices ![o, 0, 0] S1x2048x512) (hs5 : S8x512.Slices ![o, 0] S1x512)
    (n : Fin 16384) (d : Fin 512) :
    expertTerm (F := Ideal) af xf (constantI S_ 32 (BitVec.ofNat 32 o)) (extractStridedSlice S1x512x2048 ![o, 0, 0] x2 hs2)
        (extractStridedSlice S1x2048 ![o, 0] x3 hs3) (extractStridedSlice S1x2048x512 ![o, 0, 0] x4 hs4)
        (extractStridedSlice S1x512 ![o, 0] x5 hs5) (ix2 n d)
      = if Cert.MoeSpec.routed af ⟨o, ho⟩ n then Cert.MoeSpec.expertOut xf x2 x3 x4 x5 ⟨o, ho⟩ n d else 0 := by
  rw [expertTerm_apply, select_routed]
  simp only [slice_w1_apply _ o ho, slice_b1_apply _ o ho, slice_w2_apply _ o ho, slice_b2_apply _ o ho]
  rfl

/-! ## The constants, the eightfold sum, and the result -/

/-- The pattern of `2.0` denotes the real `2`. -/
theorem ofBits_two : Ideal.ofBits .f32 0x40000000#32 = ((2 : ℝ) : EReal) := by
  simp [Ideal.ofBits, Ideal.ieee, -EReal.coe_mul]; norm_num

/-- The host's quotient at an index divides the elements. -/
theorem hostDivf_apply {s : Shape} (x y : FVec Ideal s .f32) (i : s.Idx) : Host.divf (F := Ideal) x y i = Ideal.div (x i) (y i) := rfl

/-- The left-to-right sum of eight terms from zero, written out. -/
theorem accum_eight (f : Fin 8 → EReal) :
    Cert.MoeSpec.accum f 8 = 0 + f ⟨0, by decide⟩ + f ⟨1, by decide⟩ + f ⟨2, by decide⟩ + f ⟨3, by decide⟩ + f ⟨4, by decide⟩
      + f ⟨5, by decide⟩ + f ⟨6, by decide⟩ + f ⟨7, by decide⟩ := rfl

theorem refOut_eq (x0 : (⟨S8x2048x512, .f32⟩ : BufTy).Contents (Elt Ideal)) (x1 : (⟨S8x2048x2, .i32⟩ : BufTy).Contents (Elt Ideal))
    (x2 : (⟨S8x512x2048, .f32⟩ : BufTy).Contents (Elt Ideal)) (x3 : (⟨S8x2048, .f32⟩ : BufTy).Contents (Elt Ideal))
    (x4 : (⟨S8x2048x512, .f32⟩ : BufTy).Contents (Elt Ideal)) (x5 : (⟨S8x512, .f32⟩ : BufTy).Contents (Elt Ideal)) :
    Cert.ReferenceIdeal.RefTerm.refOut (F := Ideal) x0 x1 x2 x3 x4 x5
      = shapeCast S8x2048x512 (Cert.MoeSpec.refArr (shapeCast S16384x512 x0 shapeCasts_S8x2048x512_S16384x512) (shapeCast S16384x2 x1 shapeCasts_S8x2048x2_S16384x2) x2 x3 x4 x5) shapeCasts_S16384x512_S8x2048x512 := by
  unfold refOut
  refine congrArg (fun v => shapeCast S8x2048x512 v shapeCasts_S16384x512_S8x2048x512) (funext fun i => ?_)
  obtain ⟨n, d, rfl⟩ : ∃ (n : Fin 16384) (d : Fin 512), i = ix2 n d := ⟨i 0, i 1, eq_ix2 i⟩
  rw [hostDivf_apply, splat512_apply, constant_apply, ofBits_two, Ideal.div_coe two_ne_zero]
  simp only [addf_apply]
  rw [splat512_apply, constant_apply, Ideal.ofBits_zero_f32]
  rw [term_eq _ _ _ _ _ _ 0 (by decide), term_eq _ _ _ _ _ _ 1 (by decide), term_eq _ _ _ _ _ _ 2 (by decide),
    term_eq _ _ _ _ _ _ 3 (by decide), term_eq _ _ _ _ _ _ 4 (by decide), term_eq _ _ _ _ _ _ 5 (by decide),
    term_eq _ _ _ _ _ _ 6 (by decide), term_eq _ _ _ _ _ _ 7 (by decide)]
  rw [Cert.MoeSpec.refArr_apply]
  unfold Cert.MoeSpec.refVal Cert.MoeSpec.half
  rw [accum_eight]

end Cert.ReferenceIdeal.RefValue

end
-- ==== Proof.lean ====
/-
  The certificate of a mixture-of-experts layer: a Pallas kernel against its jnp reference, over the extended reals.

  Both programs flatten the activations to 16384 tokens of 512 features and, for each of eight experts, apply a
  two-layer perceptron `max (x · W1[e] + b1[e]) 0 · W2[e] + b2[e]` to every token; a token's two assignment slots say
  which experts it is routed to. The reference adds, expert after expert, the routed tokens' outputs (zero for the
  others) and halves the total. The kernel, in 64 row blocks of 256 tokens, runs a loop over the experts that adds
  each expert's output times the token's mask entry — one half where routed, zero elsewhere, picked out of the
  mask block by a one-hot lane sum. On the extended reals a change of float format is the identity and a matrix
  product is its sum, so the two differ only in where the one half is applied: the product with the nonnegative
  finite one half distributes over any sum of extended reals (Proof/Spec.lean), and no finiteness is used.

  Proof/K*.lean read the kernel's value off its generated frame run (the loop's trips by induction, the blocks by
  the cover of the output array, the last reshape after the region); Proof/RefRun*.lean and Proof/RefValue*.lean
  are the reference's run and its value at an index; `preserves` has nothing to state (no rewrite was applied).
-/
import proofs.«406470_j58420145160626_2_alg».proof.Defs
import proofs.«406470_j58420145160626_2_alg».proof.Proof.Gen.Kernel
import proofs.«406470_j58420145160626_2_alg».proof.Proof.Gen.Kernel.Skeleton
import proofs.«406470_j58420145160626_2_alg».proof.Proof.Gen.Kernel.Loops
import proofs.«406470_j58420145160626_2_alg».proof.Proof.Gen.Kernel.Launch
import proofs.«406470_j58420145160626_2_alg».proof.Proof.Gen.Kernel.Points
import proofs.«406470_j58420145160626_2_alg».proof.Proof.Gen.Kernel.Frame
import proofs.«406470_j58420145160626_2_alg».proof.Proof.Gen.KernelIdeal
import proofs.«406470_j58420145160626_2_alg».proof.Proof.Gen.KernelIdeal.Skeleton
import proofs.«406470_j58420145160626_2_alg».proof.Proof.Gen.KernelIdeal.Loops
import proofs.«406470_j58420145160626_2_alg».proof.Proof.Gen.KernelIdeal.Launch
import proofs.«406470_j58420145160626_2_alg».proof.Proof.Gen.KernelIdeal.Points
import proofs.«406470_j58420145160626_2_alg».proof.Proof.Gen.KernelIdeal.Frame
import proofs.«406470_j58420145160626_2_alg».proof.Proof.Gen.ReferenceIdeal
import proofs.«406470_j58420145160626_2_alg».proof.Proof.Gen.Pre_finite_inputs
import proofs.«406470_j58420145160626_2_alg».proof.Proof.Spec
import proofs.«406470_j58420145160626_2_alg».proof.Proof.KValue
import proofs.«406470_j58420145160626_2_alg».proof.Proof.RefRun
import proofs.«406470_j58420145160626_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing: there is nothing to preserve. -/
theorem preserves : Cert.preserves_Kernel_KernelIdeal := trivial

/-- The kernel ends at the specification's kernel value of its arguments, the reference at its reference value of
    arguments that agree; the two values are one array. -/
theorem algebraic : Cert.algebraic_KernelIdeal_ReferenceIdeal := by
  intro m ρ m' ρ' _ hagree
  refine ⟨_, Cert.KernelIdeal.Moe.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1,
    (hagree c).2.2.2.2.1, (hagree c).2.2.2.2.2, ← Cert.MoeSpec.kernelArr_eq_refArr]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
